-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S16384x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel

variable [Facts]

def fn {F : FTy → Type} [FloatOps F] (main_arg0 : FVec F S8x128x128x64 .f32) (main_arg1 : IVec S8x128x128x64 32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_c_0 : IVec S_ 32 := constantI S_ 32 0#32
  let main_v4 : IVec S8x128x128x64 32 := broadcastInDim S8x128x128x64 ![] bcast_S_S8x128x128x64 main_c_0
  let main_v5 : IVec S8x128x128x64 1 := cmpi .sge main_arg1 main_v4
  let main_c_1 : IVec S_ 1 := constantI S_ 1 1#1
  let main_v6 : IVec S_ 1 := (fun x v => Host.reduce IntOp.andi x v reducesTo_S8x128x128x64_S_d0_1_2_3 h_S_) main_v5 main_c_1
  let main_v7 : IVec S_ 1 := andi main_v3 main_v6
  main_v7
-- ==== Kernel.lean ====
abbrev S8x128x128x64 : Shape := ⟨4, ![8, 128, 128, 64]⟩
abbrev S8x64x128x128 : Shape := ⟨4, ![8, 64, 128, 128]⟩
abbrev S8x64x16384 : Shape := ⟨3, ![8, 64, 16384]⟩
abbrev S_ : Shape := ⟨0, ![]⟩
abbrev S8x64x16384x1 : Shape := ⟨4, ![8, 64, 16384, 1]⟩
abbrev S8x64x256x256 : Shape := ⟨4, ![8, 64, 256, 256]⟩
abbrev S1x1x16384x1 : Shape := ⟨4, ![1, 1, 16384, 1]⟩
abbrev S1x1x256x256 : Shape := ⟨4, ![1, 1, 256, 256]⟩
abbrev S16384x1 : Shape := ⟨2, ![16384, 1]⟩
abbrev S1x256 : Shape := ⟨2, ![1, 256]⟩
abbrev S16384x256 : Shape := ⟨2, ![16384, 256]⟩
abbrev S256x256 : Shape := ⟨2, ![256, 256]⟩
abbrev S8x256x256x64 : Shape := ⟨4, ![8, 256, 256, 64]⟩

abbrev nBuf : Space → Nat
  | .hbm => 69
  | .vmem => 5
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S8x64x128x128, .f32⟩
  | .hbm, ⟨3, _⟩ => ⟨S8x64x128x128, .i32⟩
  | .hbm, ⟨4, _⟩ => ⟨S8x64x16384, .f32⟩
  | .hbm, ⟨5, _⟩ => ⟨S8x64x16384, .i32⟩
  | .hbm, ⟨6, _⟩ => ⟨S_, .i32⟩
  | .hbm, ⟨7, _⟩ => ⟨S_, .i32⟩
  | .hbm, ⟨8, _⟩ => ⟨S8x64x16384, .i32⟩
  | .hbm, ⟨9, _⟩ => ⟨S8x64x16384, .i32⟩
  | .hbm, ⟨10, _⟩ => ⟨S8x64x16384, .i32⟩
  | .hbm, ⟨11, _⟩ => ⟨S_, .i32⟩
  | .hbm, ⟨12, _⟩ => ⟨S8x64x16384, .i32⟩
  | .hbm, ⟨13, _⟩ => ⟨S8x64x16384, .i1⟩
  | .hbm, ⟨14, _⟩ => ⟨S8x64x16384, .i32⟩
  | .hbm, ⟨15, _⟩ => ⟨S8x64x16384, .i32⟩
  | .hbm, ⟨16, _⟩ => ⟨S_, .i32⟩
  | .hbm, ⟨17, _⟩ => ⟨S8x64x16384, .i32⟩
  | .hbm, ⟨18, _⟩ => ⟨S8x64x16384, .i1⟩
  | .hbm, ⟨19, _⟩ => ⟨S8x64x16384, .i1⟩
  | .hbm, ⟨20, _⟩ => ⟨S_, .i32⟩
  | .hbm, ⟨21, _⟩ => ⟨S8x64x16384, .i32⟩
  | .hbm, ⟨22, _⟩ => ⟨S8x64x16384, .i32⟩
  | .hbm, ⟨23, _⟩ => ⟨S8x64x16384, .i32⟩
  | .hbm, ⟨24, _⟩ => ⟨S_, .i32⟩
  | .hbm, ⟨25, _⟩ => ⟨S_, .i32⟩
  | .hbm, ⟨26, _⟩ => ⟨S8x64x16384, .i32⟩
  | .hbm, ⟨27, _⟩ => ⟨S8x64x16384, .i32⟩
  | .hbm, ⟨28, _⟩ => ⟨S8x64x16384, .i32⟩
  | .hbm, ⟨29, _⟩ => ⟨S_, .i32⟩
  | .hbm, ⟨30, _⟩ => ⟨S8x64x16384, .i32⟩
  | .hbm, ⟨31, _⟩ => ⟨S8x64x16384, .i1⟩
  | .hbm, ⟨32, _⟩ => ⟨S8x64x16384, .i32⟩
  | .hbm, ⟨33, _⟩ => ⟨S8x64x16384, .i32⟩
  | .hbm, ⟨34, _⟩ => ⟨S_, .i32⟩
  | .hbm, ⟨35, _⟩ => ⟨S8x64x16384, .i32⟩
  | .hbm, ⟨36, _⟩ => ⟨S8x64x16384, .i1⟩
  | .hbm, ⟨37, _⟩ => ⟨S8x64x16384, .i1⟩
  | .hbm, ⟨38, _⟩ => ⟨S_, .i32⟩
  | .hbm, ⟨39, _⟩ => ⟨S8x64x16384, .i32⟩
  | .hbm, ⟨40, _⟩ => ⟨S8x64x16384, .i32⟩
  | .hbm, ⟨41, _⟩ => ⟨S8x64x16384, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S8x64x16384, .i32⟩
  | .hbm, ⟨49, _⟩ => ⟨S8x64x16384, .i32⟩
  | .hbm, ⟨50, _⟩ => ⟨S_, .i32⟩
  | .hbm, ⟨51, _⟩ => ⟨S8x64x16384, .i32⟩
  | .hbm, ⟨52, _⟩ => ⟨S8x64x16384, .i1⟩
  | .hbm, ⟨53, _⟩ => ⟨S_, .i32⟩
  | .hbm, ⟨54, _⟩ => ⟨S8x64x16384, .i32⟩
  | .hbm, ⟨55, _⟩ => ⟨S8x64x16384, .i1⟩
  | .hbm, ⟨56, _⟩ => ⟨S_, .i32⟩
  | .hbm, ⟨57, _⟩ => ⟨S_, .i1⟩
  | .hbm, ⟨58, _⟩ => ⟨S8x64x16384, .i1⟩
  | .hbm, ⟨59, _⟩ => ⟨S8x64x16384, .i1⟩
  | .hbm, ⟨60, _⟩ => ⟨S8x64x16384, .i1⟩
  | .hbm, ⟨61, _⟩ => ⟨S8x64x16384, .i32⟩
  | .hbm, ⟨62, _⟩ => ⟨S8x64x16384, .i32⟩
  | .hbm, ⟨63, _⟩ => ⟨S8x64x16384, .i32⟩
  | .hbm, ⟨64, _⟩ => ⟨S8x64x16384x1, .f32⟩
  | .hbm, ⟨65, _⟩ => ⟨S8x64x16384x1, .i32⟩
  | .hbm, ⟨66, _⟩ => ⟨S8x64x16384x1, .i32⟩
  | .hbm, ⟨67, _⟩ => ⟨S8x64x256x256, .f32⟩
  | .hbm, ⟨68, _⟩ => ⟨S8x256x256x64, .f32⟩
  | .local _ .vmem, ⟨0, _⟩ => ⟨S1x1x16384x1, .f32⟩
  | .local _ .vmem, ⟨1, _⟩ => ⟨S1x1x16384x1, .i32⟩
  | .local _ .vmem, ⟨2, _⟩ => ⟨S1x1x16384x1, .i32⟩
  | .local _ .vmem, ⟨3, _⟩ => ⟨S1x1x256x256, .f32⟩
  | .local _ .vmem, ⟨4, _⟩ => ⟨S1x1x256x256, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_c_1 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x1x16384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x16384x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x16384x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x128x128x64_S8x64x128x128_0_3_1_2 : S8x128x128x64.Transposes [0, 3, 1, 2] S8x64x128x128
  shapeCasts_S8x64x128x128_S8x64x16384 : S8x64x128x128.ShapeCasts S8x64x16384
  bcast_S_S8x64x16384 : S_.BroadcastsInDim S8x64x16384 (![] : Fin 0 → Fin S8x64x16384.rank)
  bcast_S8x64x16384_S8x64x16384x1_0_1_2 : S8x64x16384.BroadcastsInDim S8x64x16384x1 (![0, 1, 2] : Fin 3 → Fin S8x64x16384x1.rank)
  inb_S1x1x16384x1_S1x1x16384x1_0_0_0_0 : ∀ a, (![0, 0, 0, 0] : Fin 4 → Nat) a + S1x1x16384x1.size a ≤ S1x1x16384x1.size a
  h_S1x1x16384x1 : 0 < S1x1x16384x1.numel
  shapeCasts_S1x1x16384x1_S16384x1 : S1x1x16384x1.ShapeCasts S16384x1
  iota_S1x256_d1_w32 : S1x256.Iotas .tc 32 [1]
  broadcasts_S16384x1_S16384x256 : S16384x1.Broadcasts S16384x256
  broadcasts_S1x256_S16384x256 : S1x256.Broadcasts S16384x256
  natLt_1_32 : 1 < 32
  bitsLt_bf16_f32 : FTy.bits .bf16 < FTy.bits .f32
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  transposes_S8x64x256x256_S8x256x256x64_0_2_3_1 : S8x64x256x256.Transposes [0, 2, 3, 1] S8x256x256x64
  dot_S16384x256_S16384x256_S256x256_0_0_1_1_n_n_wf : DotDims.WF S16384x256 S16384x256 S256x256 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x16384x1.size a ≤ S8x64x16384x1.size a
  hwx0_0 : ∀ i : grid0.Coords, EltTy.bits .f32 = 32 ∨ (Rect.block (s := S8x64x16384x1) S1x1x16384x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x16384x1.size a ≤ S8x64x16384x1.size a
  hwx0_1 : ∀ i : grid0.Coords, EltTy.bits .i32 = 32 ∨ (Rect.block (s := S8x64x16384x1) S1x1x16384x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x16384x1.size a ≤ S8x64x16384x1.size a
  hwx0_2 : ∀ i : grid0.Coords, EltTy.bits .i32 = 32 ∨ (Rect.block (s := S8x64x16384x1) S1x1x16384x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x256.size a ≤ S8x64x256x256.size a
  hwx0_3 : ∀ i : grid0.Coords, EltTy.bits .f32 = 32 ∨ (Rect.block (s := S8x64x256x256) S1x1x256x256.size (cc0_transform_3 i) (hinb0_3 i)).WholeWords (EltTy.packing .f32)

variable [Facts₀]

def dot_S16384x256_S16384x256_S256x256_0_0_1_1_n_n : DotDims S16384x256 S16384x256 S256x256 where
  lhsContracting := [0]
  rhsContracting := [0]
  lhsNonContracting := [1]
  rhsNonContracting := [1]
  lhsBatch := []
  rhsBatch := []
  wf := dot_S16384x256_S16384x256_S256x256_0_0_1_1_n_n_wf

abbrev win0_0 : Pipeline.Window sig grid0 :=
  Pipeline.Window.ofSpec (Memref.whole main_v7) S1x1x16384x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x16384x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x16384x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S_ : Shape := ⟨0, ![]⟩
abbrev S8 : Shape := ⟨1, ![8]⟩
abbrev S8x1x1x1 : Shape := ⟨4, ![8, 1, 1, 1]⟩
abbrev S64 : Shape := ⟨1, ![64]⟩
abbrev S1x1x1x64 : Shape := ⟨4, ![1, 1, 1, 64]⟩
abbrev S8388608 : Shape := ⟨1, ![8388608]⟩
abbrev S8x256x256x64 : Shape := ⟨4, ![8, 256, 256, 64]⟩
abbrev S8388608x1 : Shape := ⟨2, ![8388608, 1]⟩
abbrev S8388608x4 : Shape := ⟨2, ![8388608, 4]⟩

abbrev nBuf : Space → Nat
  | .hbm => 113
  | .vmem => 0
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S_, .i32⟩
  | .hbm, ⟨3, _⟩ => ⟨S_, .i32⟩
  | .hbm, ⟨4, _⟩ => ⟨S8x128x128x64, .i32⟩
  | .hbm, ⟨5, _⟩ => ⟨S8x128x128x64, .i32⟩
  | .hbm, ⟨6, _⟩ => ⟨S8x128x128x64, .i32⟩
  | .hbm, ⟨7, _⟩ => ⟨S_, .i32⟩
  | .hbm, ⟨8, _⟩ => ⟨S8x128x128x64, .i32⟩
  | .hbm, ⟨9, _⟩ => ⟨S8x128x128x64, .i1⟩
  | .hbm, ⟨10, _⟩ => ⟨S8x128x128x64, .i32⟩
  | .hbm, ⟨11, _⟩ => ⟨S8x128x128x64, .i32⟩
  | .hbm, ⟨12, _⟩ => ⟨S_, .i32⟩
  | .hbm, ⟨13, _⟩ => ⟨S8x128x128x64, .i32⟩
  | .hbm, ⟨14, _⟩ => ⟨S8x128x128x64, .i1⟩
  | .hbm, ⟨15, _⟩ => ⟨S8x128x128x64, .i1⟩
  | .hbm, ⟨16, _⟩ => ⟨S_, .i32⟩
  | .hbm, ⟨17, _⟩ => ⟨S8x128x128x64, .i32⟩
  | .hbm, ⟨18, _⟩ => ⟨S8x128x128x64, .i32⟩
  | .hbm, ⟨19, _⟩ => ⟨S8x128x128x64, .i32⟩
  | .hbm, ⟨20, _⟩ => ⟨S_, .i32⟩
  | .hbm, ⟨21, _⟩ => ⟨S_, .i32⟩
  | .hbm, ⟨22, _⟩ => ⟨S8x128x128x64, .i32⟩
  | .hbm, ⟨23, _⟩ => ⟨S8x128x128x64, .i32⟩
  | .hbm, ⟨24, _⟩ => ⟨S8x128x128x64, .i32⟩
  | .hbm, ⟨25, _⟩ => ⟨S_, .i32⟩
  | .hbm, ⟨26, _⟩ => ⟨S8x128x128x64, .i32⟩
  | .hbm, ⟨27, _⟩ => ⟨S8x128x128x64, .i1⟩
  | .hbm, ⟨28, _⟩ => ⟨S8x128x128x64, .i32⟩
  | .hbm, ⟨29, _⟩ => ⟨S8x128x128x64, .i32⟩
  | .hbm, ⟨30, _⟩ => ⟨S_, .i32⟩
  | .hbm, ⟨31, _⟩ => ⟨S8x128x128x64, .i32⟩
  | .hbm, ⟨32, _⟩ => ⟨S8x128x128x64, .i1⟩
  | .hbm, ⟨33, _⟩ => ⟨S8x128x128x64, .i1⟩
  | .hbm, ⟨34, _⟩ => ⟨S_, .i32⟩
  | .hbm, ⟨35, _⟩ => ⟨S8x128x128x64, .i32⟩
  | .hbm, ⟨36, _⟩ => ⟨S8x128x128x64, .i32⟩
  | .hbm, ⟨37, _⟩ => ⟨S8x128x128x64, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S8x128x128x64, .i32⟩
  | .hbm, ⟨45, _⟩ => ⟨S8x128x128x64, .i32⟩
  | .hbm, ⟨46, _⟩ => ⟨S_, .i32⟩
  | .hbm, ⟨47, _⟩ => ⟨S8x128x128x64, .i32⟩
  | .hbm, ⟨48, _⟩ => ⟨S8x128x128x64, .i1⟩
  | .hbm, ⟨49, _⟩ => ⟨S_, .i32⟩
  | .hbm, ⟨50, _⟩ => ⟨S8x128x128x64, .i32⟩
  | .hbm, ⟨51, _⟩ => ⟨S8x128x128x64, .i1⟩
  | .hbm, ⟨52, _⟩ => ⟨S_, .i32⟩
  | .hbm, ⟨53, _⟩ => ⟨S_, .i1⟩
  | .hbm, ⟨54, _⟩ => ⟨S8x128x128x64, .i1⟩
  | .hbm, ⟨55, _⟩ => ⟨S8x128x128x64, .i1⟩
  | .hbm, ⟨56, _⟩ => ⟨S8x128x128x64, .i1⟩
  | .hbm, ⟨57, _⟩ => ⟨S8x128x128x64, .i32⟩
  | .hbm, ⟨58, _⟩ => ⟨S8x128x128x64, .i32⟩
  | .hbm, ⟨59, _⟩ => ⟨S8x128x128x64, .i32⟩
  | .hbm, ⟨60, _⟩ => ⟨S8, .i32⟩
  | .hbm, ⟨61, _⟩ => ⟨S8x1x1x1, .i32⟩
  | .hbm, ⟨62, _⟩ => ⟨S_, .i32⟩
  | .hbm, ⟨63, _⟩ => ⟨S8x128x128x64, .i32⟩
  | .hbm, ⟨64, _⟩ => ⟨S8x128x128x64, .i32⟩
  | .hbm, ⟨65, _⟩ => ⟨S8x128x128x64, .i32⟩
  | .hbm, ⟨66, _⟩ => ⟨S64, .i32⟩
  | .hbm, ⟨67, _⟩ => ⟨S_, .i32⟩
  | .hbm, ⟨68, _⟩ => ⟨S8x128x128x64, .i32⟩
  | .hbm, ⟨69, _⟩ => ⟨S1x1x1x64, .i32⟩
  | .hbm, ⟨70, _⟩ => ⟨S8x128x128x64, .i32⟩
  | .hbm, ⟨71, _⟩ => ⟨S8x128x128x64, .i32⟩
  | .hbm, ⟨72, _⟩ => ⟨S8388608, .f32⟩
  | .hbm, ⟨73, _⟩ => ⟨S_, .f32⟩
  | .hbm, ⟨74, _⟩ => ⟨S8x256x256x64, .f32⟩
  | .hbm, ⟨75, _⟩ => ⟨S8388608, .i32⟩
  | .hbm, ⟨76, _⟩ => ⟨S8388608, .i32⟩
  | .hbm, ⟨77, _⟩ => ⟨S8388608, .i32⟩
  | .hbm, ⟨78, _⟩ => ⟨S8388608, .i32⟩
  | .hbm, ⟨79, _⟩ => ⟨S_, .i32⟩
  | .hbm, ⟨80, _⟩ => ⟨S8388608, .i32⟩
  | .hbm, ⟨81, _⟩ => ⟨S8388608, .i1⟩
  | .hbm, ⟨82, _⟩ => ⟨S_, .i32⟩
  | .hbm, ⟨83, _⟩ => ⟨S8388608, .i32⟩
  | .hbm, ⟨84, _⟩ => ⟨S8388608, .i32⟩
  | .hbm, ⟨85, _⟩ => ⟨S8388608, .i32⟩
  | .hbm, ⟨86, _⟩ => ⟨S_, .i32⟩
  | .hbm, ⟨87, _⟩ => ⟨S8388608, .i32⟩
  | .hbm, ⟨88, _⟩ => ⟨S8388608, .i1⟩
  | .hbm, ⟨89, _⟩ => ⟨S_, .i32⟩
  | .hbm, ⟨90, _⟩ => ⟨S8388608, .i32⟩
  | .hbm, ⟨91, _⟩ => ⟨S8388608, .i32⟩
  | .hbm, ⟨92, _⟩ => ⟨S8388608, .i32⟩
  | .hbm, ⟨93, _⟩ => ⟨S_, .i32⟩
  | .hbm, ⟨94, _⟩ => ⟨S8388608, .i32⟩
  | .hbm, ⟨95, _⟩ => ⟨S8388608, .i1⟩
  | .hbm, ⟨96, _⟩ => ⟨S_, .i32⟩
  | .hbm, ⟨97, _⟩ => ⟨S8388608, .i32⟩
  | .hbm, ⟨98, _⟩ => ⟨S8388608, .i32⟩
  | .hbm, ⟨99, _⟩ => ⟨S8388608, .i32⟩
  | .hbm, ⟨100, _⟩ => ⟨S_, .i32⟩
  | .hbm, ⟨101, _⟩ => ⟨S8388608, .i32⟩
  | .hbm, ⟨102, _⟩ => ⟨S8388608, .i1⟩
  | .hbm, ⟨103, _⟩ => ⟨S_, .i32⟩
  | .hbm, ⟨104, _⟩ => ⟨S8388608, .i32⟩
  | .hbm, ⟨105, _⟩ => ⟨S8388608, .i32⟩
  | .hbm, ⟨106, _⟩ => ⟨S8388608, .i32⟩
  | .hbm, ⟨107, _⟩ => ⟨S8388608x1, .i32⟩
  | .hbm, ⟨108, _⟩ => ⟨S8388608x1, .i32⟩
  | .hbm, ⟨109, _⟩ => ⟨S8388608x1, .i32⟩
  | .hbm, ⟨110, _⟩ => ⟨S8388608x1, .i32⟩
  | .hbm, ⟨111, _⟩ => ⟨S8388608x4, .i32⟩
  | .hbm, ⟨112, _⟩ => ⟨S8x256x256x64, .f32⟩
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_c_2 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_c_3 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_cst : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_c_4 : Ref sig .tc := ⟨.hbm, 79, rfl⟩
abbrev main_v19 : Ref sig .tc := ⟨.hbm, 80, rfl⟩
abbrev main_v20 : Ref sig .tc := ⟨.hbm, 81, rfl⟩
abbrev main_c_5 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_c_6 : Ref sig .tc := ⟨.hbm, 86, rfl⟩
abbrev main_v24 : Ref sig .tc := ⟨.hbm, 87, rfl⟩
abbrev main_v25 : Ref sig .tc := ⟨.hbm, 88, rfl⟩
abbrev main_c_7 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_c_8 : Ref sig .tc := ⟨.hbm, 93, rfl⟩
abbrev main_v29 : Ref sig .tc := ⟨.hbm, 94, rfl⟩
abbrev main_v30 : Ref sig .tc := ⟨.hbm, 95, rfl⟩
abbrev main_c_9 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_c_10 : Ref sig .tc := ⟨.hbm, 100, rfl⟩
abbrev main_v34 : Ref sig .tc := ⟨.hbm, 101, rfl⟩
abbrev main_v35 : Ref sig .tc := ⟨.hbm, 102, rfl⟩
abbrev main_c_11 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩

abbrev nD : Nat := 1
abbrev τ : Topo := Topo.v7x

variable {F : FTy → Type} [FloatOps F]

class Facts₀ : Prop where
  bcast_S_S8x128x128x64 : S_.BroadcastsInDim S8x128x128x64 (![] : Fin 0 → Fin S8x128x128x64.rank)
  bcast_S8_S8x1x1x1_0 : S8.BroadcastsInDim S8x1x1x1 (![0] : Fin 1 → Fin S8x1x1x1.rank)
  bcast_S8x1x1x1_S8x128x128x64_0_1_2_3 : S8x1x1x1.BroadcastsInDim S8x128x128x64 (![0, 1, 2, 3] : Fin 4 → Fin S8x128x128x64.rank)
  bcast_S64_S1x1x1x64_3 : S64.BroadcastsInDim S1x1x1x64 (![3] : Fin 1 → Fin S1x1x1x64.rank)
  bcast_S1x1x1x64_S8x128x128x64_0_1_2_3 : S1x1x1x64.BroadcastsInDim S8x128x128x64 (![0, 1, 2, 3] : Fin 4 → Fin S8x128x128x64.rank)
  shapeCasts_S8x128x128x64_S8388608 : S8x128x128x64.ShapeCasts S8388608
  bcast_S_S8x256x256x64 : S_.BroadcastsInDim S8x256x256x64 (![] : Fin 0 → Fin S8x256x256x64.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1
  scatter_S8x256x256x64_S8388608x4_S8388608_n_0123_0123_1_wf : ScatterDims.WF S8x256x256x64 S8388608x4 S8388608 [] [0, 1, 2, 3] [0, 1, 2, 3] 1

variable [Facts₀]

def scatter_S8x256x256x64_S8388608x4_S8388608_n_0123_0123_1 : ScatterDims S8x256x256x64 S8388608x4 S8388608 where
  updateWindowDims := []
  insertedWindowDims := [0, 1, 2, 3]
  scatterDimsToOperandDims := [0, 1, 2, 3]
  indexVectorDim := 1
  wf := scatter_S8x256x256x64_S8388608x4_S8388608_n_0123_0123_1_wf

class Facts : Prop extends Facts₀ where

variable [Facts]
-- ==== Proof.Spec.lean ====
/-
  What both programs compute, stated once over the argument arrays.

  An input element at batch `b`, row `h`, column `w`, channel `c` carries an index word `a`; its destination row is
  `⌊a / 16384⌋` and its destination column `⌊a / 64⌋ mod 256` (floor division and the non-negative remainder, on 32-bit
  words, exactly as both programs spell them). The output element at `(b, Y, X, c)` is the sum of the input elements of
  batch `b` and channel `c` whose destination is `(Y, X)`; an element whose destination row is no row of the output
  contributes nowhere.
-/
import Idealize.ShloMosaic.PureOps.Ideal
import Idealize.ShloMosaic.Lib.ValueIdx

noncomputable section

namespace Cert.Unpool

open Idealize.ShloMosaic Idealize.ShloMosaic.ValueIdx

/-- The input arrays' shape, batch × rows × columns × channels. -/
abbrev SIn : Shape := ⟨4, ![8, 128, 128, 64]⟩
/-- The output array's shape: twice the rows and columns. -/
abbrev SOut : Shape := ⟨4, ![8, 256, 256, 64]⟩

/-- The sign of a word as a word: `0`, `-1` or `1`. -/
def sgnW (x : BitVec 32) : BitVec 32 := if x = 0 then 0 else if x.msb then -1 else 1

/-- Floor division of words: the quotient rounded toward zero, less one where the signs differ and the remainder is
    not zero. -/
def fdivW (a c : BitVec 32) : BitVec 32 :=
  Scalar.select (IntOp.andi (IntOp.cmpi .ne (sgnW a) (sgnW c)) (IntOp.cmpi .ne (IntOp.remsi .host a c) 0#32))
    (IntOp.subi (IntOp.divsi .host a c) 1#32) (IntOp.divsi .host a c)

/-- The remainder with the divisor's sign: the remainder of the dividend's sign, plus the divisor where the two signs
    differ and the remainder is not zero (a zero divisor is read as one). -/
def pmodW (q c : BitVec 32) : BitVec 32 :=
  Scalar.select
    (IntOp.andi
      (IntOp.cmpi .ne (IntOp.cmpi .slt (IntOp.remsi .host q (Scalar.select (IntOp.cmpi .eq c 0#32) 1#32 c)) 0#32)
        (IntOp.cmpi .slt (Scalar.select (IntOp.cmpi .eq c 0#32) 1#32 c) 0#32))
      (IntOp.cmpi .ne (IntOp.remsi .host q (Scalar.select (IntOp.cmpi .eq c 0#32) 1#32 c)) 0#32))
    (IntOp.addi (IntOp.remsi .host q (Scalar.select (IntOp.cmpi .eq c 0#32) 1#32 c)) (Scalar.select (IntOp.cmpi .eq c 0#32) 1#32 c))
    (IntOp.remsi .host q (Scalar.select (IntOp.cmpi .eq c 0#32) 1#32 c))

/-- The destination row an index word names: `⌊a / (256 · 64)⌋`. -/
def ydec (a : BitVec 32) : BitVec 32 := fdivW a 16384#32
/-- The destination column an index word names: `⌊a / 64⌋ mod 256`. -/
def xdec (a : BitVec 32) : BitVec 32 := pmodW (fdivW a 64#32) 256#32

/-- The output element at batch `b`, row `Y`, column `X`, channel `c`: the sum over the input's rows and columns of the
    elements of that batch and channel whose index word names `(Y, X)`. -/
def unpoolAt (x : SIn.Idx → EReal) (idx : SIn.Idx → BitVec 32) (b : Fin 8) (Y X : Fin 256) (c : Fin 64) : EReal :=
  ∑ h : Fin 128, ∑ w : Fin 128,
    if ydec (idx (ix4 b h w c)) = BitVec.ofNat 32 Y.val ∧ xdec (idx (ix4 b h w c)) = BitVec.ofNat 32 X.val
    then x (ix4 b h w c) else 0

/-- The input row of position `k` of a row-major flattened 128 × 128 plane. -/
def rowOf (k : Fin 16384) : Fin 128 := ⟨k.val / 128, by omega⟩
/-- The input column of position `k` of a row-major flattened 128 × 128 plane. -/
def colOf (k : Fin 16384) : Fin 128 := ⟨k.val % 128, by omega⟩

/-- The whole output array. -/
def unpool (x : SIn.Idx → EReal) (idx : SIn.Idx → BitVec 32) : SOut.Idx → EReal :=
  fun o => unpoolAt x idx (o 0) (o 1) (o 2) (o 3)

theorem unpool_ix4 (x : SIn.Idx → EReal) (idx : SIn.Idx → BitVec 32) (b : Fin 8) (Y X : Fin 256) (c : Fin 64) :
    unpool x idx (ix4 b Y X c) = unpoolAt x idx b Y X c := rfl

end Cert.Unpool

end
-- ==== Proof.PreFacts.lean ====
/-
  Reading the precondition: it is the conjunction of two "for all elements" tests, one that every input value is below
  `+∞` in absolute value — so it is a real number — and one that every index word is at least zero, read signed.
-/
import proofs.«422051_j75591424410236_3_alg».proof.Pre_finite_inputs
import proofs.«422051_j75591424410236_3_alg».proof.Proof.Gen.Pre_finite_inputs
import Idealize.ShloMosaic.PureOps.Ideal
import Idealize.ShloMosaic.Lib.ReduceAll
import Idealize.ShloMosaic.Lib.ValueIdx

noncomputable section

namespace Cert.Unpool.Pre

open Idealize.ShloMosaic

/-! The precondition is the conjunction of two reductions by `and` over the whole arrays: of `|x| < +∞` over the input
elements, and of `0 ≤ idx` (signed) over the index words. It says `1`; so every element passed its test. -/

/-- The scalar result has one index. -/
instance : Subsingleton Cert.Pre_finite_inputs.S_.Idx := ⟨fun a b => funext fun d => d.elim0⟩

/-- An extended real whose absolute value lies below the pattern of `+∞` is a real number: it is neither infinity. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A word that tests `≥ 0` signed reads non-negative. -/
theorem nonneg_of_sge_zero (a : BitVec 32) (h : IntOp.cmpi .sge a 0#32 = 1#1) : 0 ≤ a.toInt := by
  rw [IntOp.cmpi_sge] at h
  have h0 : (0#32 : BitVec 32).toInt = 0 := by decide
  omega

/-- Under the precondition each element passes both tests. -/
theorem elem_of_pre (x : FVec Ideal Cert.Pre_finite_inputs.S8x128x128x64 .f32) (idx : IVec Cert.Pre_finite_inputs.S8x128x128x64 32)
    (h : Cert.Pre_finite_inputs.fn (F := Ideal) x idx = fun _ => 1#1) (i : Cert.Pre_finite_inputs.S8x128x128x64.Idx) :
    Ideal.cmp .olt (max (x i : EReal) (-(x i : EReal))) (Ideal.ofBits .f32 0x7F800000#32) = 1#1
      ∧ IntOp.cmpi .sge (idx i) 0#32 = 1#1 := by
  have h0 := congrFun h ValueIdx.ix0
  dsimp only [Cert.Pre_finite_inputs.fn] at h0
  obtain ⟨h1, h2⟩ := IntOp.andi_eq_one.1 h0
  exact ⟨Host.reduce_andi_all _ _ _ _ _ h1 i, Host.reduce_andi_all _ _ _ _ _ h2 i⟩

/-- Under the precondition every input element is a real number. -/
theorem finite_of_pre (x : FVec Ideal Cert.Pre_finite_inputs.S8x128x128x64 .f32) (idx : IVec Cert.Pre_finite_inputs.S8x128x128x64 32)
    (h : Cert.Pre_finite_inputs.fn (F := Ideal) x idx = fun _ => 1#1) (i : Cert.Pre_finite_inputs.S8x128x128x64.Idx) :
    ∃ r : ℝ, (x i : EReal) = (r : EReal) :=
  real_of_abs_lt_inf _ (elem_of_pre x idx h i).1

/-- Under the precondition every index word is non-negative, read signed. -/
theorem nonneg_of_pre (x : FVec Ideal Cert.Pre_finite_inputs.S8x128x128x64 .f32) (idx : IVec Cert.Pre_finite_inputs.S8x128x128x64 32)
    (h : Cert.Pre_finite_inputs.fn (F := Ideal) x idx = fun _ => 1#1) (i : Cert.Pre_finite_inputs.S8x128x128x64.Idx) :
    0 ≤ (idx i).toInt :=
  nonneg_of_sge_zero _ (elem_of_pre x idx h i).2

end Cert.Unpool.Pre

end
-- ==== Proof.Sums.lean ====
/-
  Two re-indexings of finite sums: the positions of a row-major flattened 128 × 128 plane against its rows and columns,
  and the indices of a rank-4 array against its four coordinates.
-/
import proofs.«422051_j75591424410236_3_alg».proof.Proof.Spec
import Idealize.ShloMosaic.Lib.ValueIdx

noncomputable section

namespace Cert.Unpool

open Idealize.ShloMosaic Idealize.ShloMosaic.ValueIdx

/-- A position `k` of the flattened plane is its row and column, `k = 128 · row + column`: the positions are the
    pairs of a row and a column. -/
def planeEquiv : Fin 16384 ≃ Fin 128 × Fin 128 where
  toFun k := (rowOf k, colOf k)
  invFun p := ⟨128 * p.1.val + p.2.val, by have := p.1.isLt; have := p.2.isLt; omega⟩
  left_inv k := Fin.ext (by show 128 * (k.val / 128) + k.val % 128 = k.val; omega)
  right_inv p := by
    obtain ⟨⟨a, ha⟩, ⟨b, hb⟩⟩ := p
    exact Prod.ext (Fin.ext (by show (128 * a + b) / 128 = a; omega)) (Fin.ext (by show (128 * a + b) % 128 = b; omega))

/-- A sum over the 16384 positions of a row-major flattened 128 × 128 plane is the sum over its rows and columns. -/
theorem sum_plane {M : Type*} [AddCommMonoid M] (f : Fin 128 → Fin 128 → M) :
    ∑ k : Fin 16384, f (rowOf k) (colOf k) = ∑ h : Fin 128, ∑ w : Fin 128, f h w :=
  (Fintype.sum_equiv planeEquiv (fun k => f (rowOf k) (colOf k)) (fun p => f p.1 p.2) (fun _ => rfl)).trans
    (Fintype.sum_prod_type' f)

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 shape is the four nested sums over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end Cert.Unpool

end
-- ==== Proof.KernelBody.lean ====
/-
  One grid point of the kernel: a (batch, channel) pair's 256 × 256 output plane from that pair's three columns of 16384
  entries — the values `v`, the destination rows and the destination columns. The body forms the indicator matrices
  `[rowₖ = Y]` and `[colₖ = X]`, scales the first by `v` and by the remainder `v − v`, and contracts each product with
  the second over `k`. Over the extended reals a real `v` has `v − v = 0`, so the second contraction vanishes and
  the first is `∑ₖ if rowₖ = Y ∧ colₖ = X then vₖ else 0`.
-/
import proofs.«422051_j75591424410236_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.UnpoolBody

open Idealize.ShloMosaic Idealize.ShloMosaic.ValueIdx Cert.KernelIdeal Cert.KernelIdeal.Gen

/-! ## The layout operations of the body, read at an index -/

section Layout
variable {α : Type}

/-- A `[1, 1, 16384, 1]` block viewed as a `[16384, 1]` column reads, at `(k, 0)`, the block at `(0, 0, k, 0)`:
    both have row-major position `k`. -/
theorem cast_col (v : S1x1x16384x1.Idx → α) (h : S1x1x16384x1.ShapeCasts S16384x1) (k : Fin 16384) (u : Fin 1) :
    shapeCast S16384x1 v h (ix2 k u) = v (ix4 (0 : Fin 1) (0 : Fin 1) k (0 : Fin 1)) :=
  shapeCast_apply v h _ _ (by
    have hu : u.val = 0 := by omega
    rw [Shape.rowMajor_val_four, Shape.rowMajor_val_two]
    show ((0 * 1 + 0) * 16384 + k.val) * 1 + 0 = k.val * 1 + u.val
    omega)

/-- A `[256, 256]` matrix stored as a `[1, 1, 256, 256]` block reads, at `(0, 0, Y, X)`, the matrix at `(Y, X)`. -/
theorem cast_out (v : S256x256.Idx → α) (h : S256x256.ShapeCasts S1x1x256x256) (Y X : Fin 256) :
    shapeCast S1x1x256x256 v h (ix4 (0 : Fin 1) (0 : Fin 1) Y X) = v (ix2 Y X) :=
  shapeCast_apply v h _ _ (by
    rw [Shape.rowMajor_val_four, Shape.rowMajor_val_two]
    show Y.val * 256 + X.val = ((0 * 1 + 0) * 256 + Y.val) * 256 + X.val
    omega)

/-- A `[16384, 1]` column broadcast over 256 lanes reads, at `(k, Y)`, the column at `(k, 0)`. -/
theorem bcast_col (v : S16384x1.Idx → α) (h : S16384x1.Broadcasts S16384x256) (k : Fin 16384) (Y : Fin 256) :
    broadcastTo S16384x256 v h (ix2 k Y) = v (ix2 k (0 : Fin 1)) := by
  refine broadcastTo_apply v h (ix2 k Y) (ix2 k (0 : Fin 1)) fun ax => ?_
  match ax with
  | ⟨0, _⟩ => rfl
  | ⟨1, _⟩ => rfl

/-- The lane counter: the `[1, 256]` iota along axis 1 reads, at `(0, Y)`, the word `Y`. -/
theorem iota_lane (h : S1x256.Iotas .tc 32 [1]) (u : Fin 1) (Y : Fin 256) :
    iota .tc S1x256 32 [1] h (ix2 u Y) = BitVec.ofNat 32 Y.val :=
  iota_single_apply .tc S1x256 32 1 h (ix2 u Y)

end Layout

/-! ## The comparison as a number -/

/-- Two words compared for equality, the bit widened to a word and read as a signed number: `1` where they are equal,
    `0` where they are not. -/
theorem ind_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    have e : (IntOp.cmpi .eq a a).setWidth 32 = 1#32 := by simp [IntOp.cmpi]
    have e1 : (1#32 : BitVec 32).toInt = 1 := by decide
    rw [e, e1, if_pos rfl]
    simp
  · have hne : (a == b) = false := beq_eq_false_iff_ne.mpr h
    have e : (IntOp.cmpi .eq a b).setWidth 32 = 0#32 := by
      show (BitVec.ofBool (a == b)).setWidth 32 = 0#32
      rw [hne]; decide
    have e0 : (0#32 : BitVec 32).toInt = 0 := by decide
    rw [e, e0, if_neg h]
    simp

/-- The indicator matrix of a column of words against the lane counter: at `(k, Y)` it is `1` where the word at
    position `k` is `Y`, else `0`. -/
theorem onehot_apply (w : S1x1x16384x1.Idx → BitVec 32) (hc : S1x1x16384x1.ShapeCasts S16384x1)
    (hb : S16384x1.Broadcasts S16384x256) (hi : S1x256.Iotas .tc 32 [1]) (hr : S1x256.Broadcasts S16384x256)
    (hlt : 1 < 32) (hbits : FTy.bits .bf16 < FTy.bits .f32) (k : Fin 16384) (Y : Fin 256) :
    (truncf .bf16 (sitofp (F := Ideal) .f32 (extui 32 (cmpi .eq (broadcastTo S16384x256 (shapeCast S16384x1 w hc) hb)
        (broadcastTo S16384x256 (iota .tc S1x256 32 [1] hi) hr)) hlt)) hbits : FVec Ideal S16384x256 .bf16) (ix2 k Y)
      = if w (ix4 (0 : Fin 1) (0 : Fin 1) k (0 : Fin 1)) = BitVec.ofNat 32 Y.val then (1 : EReal) else 0 := by
  have e1 : broadcastTo S16384x256 (shapeCast S16384x1 w hc) hb (ix2 k Y) = w (ix4 (0 : Fin 1) (0 : Fin 1) k (0 : Fin 1)) :=
    (bcast_col _ hb k Y).trans (cast_col w hc k 0)
  have e2 : broadcastTo S16384x256 (iota .tc S1x256 32 [1] hi) hr (ix2 k Y) = BitVec.ofNat 32 Y.val :=
    (broadcastTo_1b_ab_apply _ hr k Y).trans (iota_lane hi 0 Y)
  show (FloatOps.sitofp (F := Ideal) .f32 ((IntOp.cmpi .eq (broadcastTo S16384x256 (shapeCast S16384x1 w hc) hb (ix2 k Y))
      (broadcastTo S16384x256 (iota .tc S1x256 32 [1] hi) hr (ix2 k Y))).setWidth 32) : EReal) = _
  rw [e1, e2]
  exact ind_word _ _

/-! ## The matrix product read at an index

The product contracts axis 0 of both operands: the result's row axis is the left operand's axis 1 and its column axis
the right operand's axis 1. -/

theorem lhs_0 (i : S256x256.Idx) (q : dot_S16384x256_S16384x256_S256x256_0_0_1_1_n_n.contr.Idx) :
    (dot_S16384x256_S16384x256_S256x256_0_0_1_1_n_n.lhsIdx i q 0).val = (q ⟨0, by decide⟩).val :=
  dot_S16384x256_S16384x256_S256x256_0_0_1_1_n_n.lhsIdx_val_of_single rfl i q

theorem lhs_1 (i : S256x256.Idx) (q : dot_S16384x256_S16384x256_S256x256_0_0_1_1_n_n.contr.Idx) :
    (dot_S16384x256_S16384x256_S256x256_0_0_1_1_n_n.lhsIdx i q 1).val = (i 0).val := by
  unfold DotDims.lhsIdx
  rw [dif_neg (show ¬(1 : Fin S16384x256.rank) ∈ dot_S16384x256_S16384x256_S256x256_0_0_1_1_n_n.lhsBatch by decide),
    dif_pos (show (1 : Fin S16384x256.rank) ∈ dot_S16384x256_S16384x256_S256x256_0_0_1_1_n_n.lhsNonContracting by decide)]
  rfl

theorem rhs_0 (i : S256x256.Idx) (q : dot_S16384x256_S16384x256_S256x256_0_0_1_1_n_n.contr.Idx) :
    (dot_S16384x256_S16384x256_S256x256_0_0_1_1_n_n.rhsIdx i q 0).val = (q ⟨0, by decide⟩).val :=
  dot_S16384x256_S16384x256_S256x256_0_0_1_1_n_n.rhsIdx_val_of_single rfl i q

theorem rhs_1 (i : S256x256.Idx) (q : dot_S16384x256_S16384x256_S256x256_0_0_1_1_n_n.contr.Idx) :
    (dot_S16384x256_S16384x256_S256x256_0_0_1_1_n_n.rhsIdx i q 1).val = (i 1).val := by
  unfold DotDims.rhsIdx
  rw [dif_neg (show ¬(1 : Fin S16384x256.rank) ∈ dot_S16384x256_S16384x256_S256x256_0_0_1_1_n_n.rhsBatch by decide),
    dif_pos (show (1 : Fin S16384x256.rank) ∈ dot_S16384x256_S16384x256_S256x256_0_0_1_1_n_n.rhsNonContracting by decide)]
  rfl

/-- The product into the zero matrix, read at `(Y, X)`: the sum over the 16384 contracted positions `k` of the left
    operand at `(k, Y)` times the right operand at `(k, X)`, the factors named by what they are known to be. -/
theorem matmul_read (A B : FVec Ideal S16384x256 .bf16) (Y X : Fin 256) (L R : Fin 16384 → EReal)
    (hl : ∀ k : Fin 16384, A (ix2 k Y) = L k) (hr : ∀ k : Fin 16384, B (ix2 k X) = R k) :
    matmul dot_S16384x256_S16384x256_S256x256_0_0_1_1_n_n none A B (constant (F := Ideal) S256x256 .f32 0x00000000#32) (ix2 Y X)
      = ∑ k : Fin 16384, L k * R k := by
  simp only [matmul]
  rw [Ideal.matmul_constant_zero_apply,
    ← Equiv.sum_comp (contrEquiv1 dot_S16384x256_S16384x256_S256x256_0_0_1_1_n_n 16384 rfl rfl).symm]
  refine Finset.sum_congr rfl fun k _ => ?_
  have hk := contrEquiv1_symm_val dot_S16384x256_S16384x256_S256x256_0_0_1_1_n_n 16384 rfl rfl k
  have el : dot_S16384x256_S16384x256_S256x256_0_0_1_1_n_n.lhsIdx (ix2 Y X)
      ((contrEquiv1 dot_S16384x256_S16384x256_S256x256_0_0_1_1_n_n 16384 rfl rfl).symm k) = ix2 k Y :=
    funext fun a => Fin.ext (by
      match a with
      | ⟨0, _⟩ => exact (lhs_0 _ _).trans hk
      | ⟨1, _⟩ => exact lhs_1 _ _)
  have er : dot_S16384x256_S16384x256_S256x256_0_0_1_1_n_n.rhsIdx (ix2 Y X)
      ((contrEquiv1 dot_S16384x256_S16384x256_S256x256_0_0_1_1_n_n 16384 rfl rfl).symm k) = ix2 k X :=
    funext fun a => Fin.ext (by
      match a with
      | ⟨0, _⟩ => exact (rhs_0 _ _).trans hk
      | ⟨1, _⟩ => exact rhs_1 _ _)
  rw [el, er, hl k, hr k]

/-- One grid point's block, element `(Y, X)`: the sum over the 16384 flattened positions `k` of the value at `k` where
    the row word at `k` is `Y` and the column word at `k` is `X` (the values real numbers). -/
theorem pay_apply (v : Vec Ideal S1x1x16384x1 .f32) (y x : Vec Ideal S1x1x16384x1 .i32)
    (hfin : ∀ k : Fin 16384, ∃ r : ℝ, (v (ix4 0 0 k 0) : EReal) = (r : EReal)) (Y X : Fin 256) :
    (k0_pay1 (F := Ideal) v y x (ix4 0 0 Y X) : EReal)
      = ∑ k : Fin 16384, if (y (ix4 0 0 k 0) : BitVec 32) = BitVec.ofNat 32 Y.val ∧ (x (ix4 0 0 k 0) : BitVec 32) = BitVec.ofNat 32 X.val
          then (v (ix4 0 0 k 0) : EReal) else 0 := by
  unfold k0_pay1
  refine (cast_out _ _ Y X).trans ?_
  refine (addf_apply _ _ _).trans ?_
  refine (congrArg₂ (· + ·)
    (matmul_read _ _ Y X
      (fun k => (if (y (ix4 0 0 k 0) : BitVec 32) = BitVec.ofNat 32 Y.val then (1 : EReal) else 0) * (v (ix4 0 0 k 0) : EReal))
      (fun k => if (x (ix4 0 0 k 0) : BitVec 32) = BitVec.ofNat 32 X.val then (1 : EReal) else 0)
      (fun k => ?_) (fun k => ?_))
    (matmul_read _ _ Y X
      (fun k => (if (y (ix4 0 0 k 0) : BitVec 32) = BitVec.ofNat 32 Y.val then (1 : EReal) else 0)
        * ((v (ix4 0 0 k 0) : EReal) - (v (ix4 0 0 k 0) : EReal)))
      (fun k => if (x (ix4 0 0 k 0) : BitVec 32) = BitVec.ofNat 32 X.val then (1 : EReal) else 0)
      (fun k => ?_) (fun k => ?_))).trans ?_
  · -- the high part's left factor: the row indicator times the value
    refine (mulf_apply _ _ _).trans ?_
    have h1 := onehot_apply y shapeCasts_S1x1x16384x1_S16384x1 broadcasts_S16384x1_S16384x256 iota_S1x256_d1_w32
      broadcasts_S1x256_S16384x256 natLt_1_32 bitsLt_bf16_f32 k Y
    have h2 := (bcast_col (truncf .bf16 (shapeCast S16384x1 v shapeCasts_S1x1x16384x1_S16384x1) bitsLt_bf16_f32 : FVec Ideal S16384x1 .bf16)
      broadcasts_S16384x1_S16384x256 k Y).trans (cast_col v shapeCasts_S1x1x16384x1_S16384x1 k 0)
    rw [h1, h2]
  · exact onehot_apply x shapeCasts_S1x1x16384x1_S16384x1 broadcasts_S16384x1_S16384x256 iota_S1x256_d1_w32
      broadcasts_S1x256_S16384x256 natLt_1_32 bitsLt_bf16_f32 k X
  · -- the low part's left factor: the row indicator times the value less itself
    refine (mulf_apply _ _ _).trans ?_
    have h1 := onehot_apply y shapeCasts_S1x1x16384x1_S16384x1 broadcasts_S16384x1_S16384x256 iota_S1x256_d1_w32
      broadcasts_S1x256_S16384x256 natLt_1_32 bitsLt_bf16_f32 k Y
    have h3 : shapeCast S16384x1 v shapeCasts_S1x1x16384x1_S16384x1 (ix2 k (0 : Fin 1)) = v (ix4 0 0 k 0) :=
      cast_col v shapeCasts_S1x1x16384x1_S16384x1 k 0
    have h2 : broadcastTo S16384x256
        (truncf .bf16 (subf (shapeCast S16384x1 v shapeCasts_S1x1x16384x1_S16384x1)
          (shapeCast S16384x1 v shapeCasts_S1x1x16384x1_S16384x1)) bitsLt_bf16_f32 : FVec Ideal S16384x1 .bf16)
        broadcasts_S16384x1_S16384x256 (ix2 k Y)
        = (v (ix4 0 0 k 0) : EReal) - (v (ix4 0 0 k 0) : EReal) := by
      refine (bcast_col _ broadcasts_S16384x1_S16384x256 k Y).trans ?_
      show shapeCast S16384x1 v shapeCasts_S1x1x16384x1_S16384x1 (ix2 k (0 : Fin 1))
        - shapeCast S16384x1 v shapeCasts_S1x1x16384x1_S16384x1 (ix2 k (0 : Fin 1)) = _
      rw [h3]
    rw [h1, h2]
  · exact onehot_apply x shapeCasts_S1x1x16384x1_S16384x1 broadcasts_S16384x1_S16384x256 iota_S1x256_d1_w32
      broadcasts_S1x256_S16384x256 natLt_1_32 bitsLt_bf16_f32 k X
  · -- the two sums: the low part vanishes, the high part's term is the value where both comparisons hold
    rw [← Finset.sum_add_distrib]
    refine Finset.sum_congr rfl fun k _ => ?_
    obtain ⟨r, hr⟩ := hfin k
    have hz : (v (ix4 0 0 k 0) : EReal) - (v (ix4 0 0 k 0) : EReal) = 0 := by
      rw [hr, ← EReal.coe_sub, sub_self, EReal.coe_zero]
    beta_reduce
    rw [hz, mul_zero, zero_mul, add_zero]
    by_cases hy : (y (ix4 0 0 k 0) : BitVec 32) = BitVec.ofNat 32 Y.val
    · by_cases hx : (x (ix4 0 0 k 0) : BitVec 32) = BitVec.ofNat 32 X.val
      · rw [if_pos hy, if_pos hx, if_pos ⟨hy, hx⟩, one_mul, mul_one]
      · rw [if_pos hy, if_neg hx, mul_zero]
        exact (if_neg fun h => hx h.2).symm
    · rw [if_neg hy, zero_mul, zero_mul]
      exact (if_neg fun h => hy h.1).symm

end Cert.KernelIdeal.UnpoolBody

end
-- ==== Proof.KernelHost.lean ====
/-
  What the region is handed. Before the region the program moves the channel axis next to the batch axis, flattens each
  128 × 128 plane row-major into 16384 positions (position `k` is row `k / 128`, column `k % 128`), decodes the index
  words elementwise into destination rows and columns, and appends a unit axis. So at batch `b`, channel `ch`,
  position `k` the three columns hold the input value, the destination row and the destination column of the input
  element `(b, k / 128, k % 128, ch)`.
-/
import proofs.«422051_j75591424410236_3_alg».proof.Proof.Gen.KernelIdeal.Frame
import proofs.«422051_j75591424410236_3_alg».proof.Proof.Spec
import Idealize.ShloMosaic.Lib.ValueIdx
import Idealize.ShloMosaic.Lib.Pipeline.Value
import Idealize.ShloMosaic.Lib.StableHlo.Run

noncomputable section

namespace Cert.KernelIdeal.UnpoolHost

open Idealize.ShloMosaic Idealize.ShloMosaic.TcCoe Idealize.ShloMosaic.ValueIdx Idealize.SL.Sem
open Cert.KernelIdeal Cert.KernelIdeal.Gen Cert.Unpool

variable (m : (ℓ : Loc nD τ sig) → Buf (Elt Ideal) ℓ)

/-! ## The three layout operations read at an index -/

section Layout
variable {α : Type}

/-- A broadcast into a trailing unit axis reads the operand at the first three coordinates. -/
theorem bcastUnit_apply (x : S8x64x16384.Idx → α) (h : S8x64x16384.BroadcastsInDim S8x64x16384x1 ![0, 1, 2])
    (b : Fin 8) (ch : Fin 64) (k : Fin 16384) (u : Fin 1) :
    broadcastInDim S8x64x16384x1 ![0, 1, 2] h x (ix4 b ch k u) = x (ix3 b ch k) :=
  broadcastInDim_apply _ h x _ _ fun a => match a with | ⟨0, _⟩ => rfl | ⟨1, _⟩ => rfl | ⟨2, _⟩ => rfl

/-- The 128 × 128 planes flattened row-major: position `k` of a flattened plane is row `k / 128`, column `k % 128`. -/
theorem flatten_apply (x : S8x64x128x128.Idx → α) (h : S8x64x128x128.ShapeCasts S8x64x16384)
    (b : Fin 8) (ch : Fin 64) (k : Fin 16384) :
    shapeCast S8x64x16384 x h (ix3 b ch k) = x (ix4 b ch (rowOf k) (colOf k)) :=
  shapeCast_apply x h _ _ (by
    rw [Shape.rowMajor_val_four, Shape.rowMajor_val_three]
    show ((b.val * 64 + ch.val) * 128 + k.val / 128) * 128 + k.val % 128 = (b.val * 64 + ch.val) * 16384 + k.val
    omega)

/-- The channel axis moved from last to second: the result at `(b, ch, r, w)` is the operand at `(b, r, w, ch)`. -/
theorem chanFirst_apply (x : S8x128x128x64.Idx → α) (h : S8x128x128x64.Transposes [0, 3, 1, 2] S8x64x128x128)
    (b : Fin 8) (ch : Fin 64) (r w : Fin 128) :
    transpose S8x64x128x128 [0, 3, 1, 2] x h (ix4 b ch r w) = x (ix4 b r w ch) :=
  transpose_apply _ x h _ _ fun a => match a with | ⟨0, _⟩ => rfl | ⟨1, _⟩ => rfl | ⟨2, _⟩ => rfl | ⟨3, _⟩ => rfl

end Layout

/-! ## The host operations before the region, buffer by buffer -/

/-- The index words with the channel axis moved to second place and the planes flattened. -/
theorem v3_at (c : Dev nD) (b : Fin 8) (ch : Fin 64) (k : Fin 16384) :
    (V (F := Ideal) m c main_v3 : S8x64x16384.Idx → BitVec 32) (ix3 b ch k)
      = (m ((c.tc : Thread nD τ).loc main_arg1) : S8x128x128x64.Idx → BitVec 32) (ix4 b (rowOf k) (colOf k) ch) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  refine (flatten_apply _ _ b ch k).trans ?_
  exact chanFirst_apply _ _ b ch (rowOf k) (colOf k)

/-- The input elements, likewise. -/
theorem v2_at (c : Dev nD) (b : Fin 8) (ch : Fin 64) (k : Fin 16384) :
    (V (F := Ideal) m c main_v2 : S8x64x16384.Idx → EReal) (ix3 b ch k)
      = (m ((c.tc : Thread nD τ).loc main_arg0) : S8x128x128x64.Idx → EReal) (ix4 b (rowOf k) (colOf k) ch) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  refine (flatten_apply _ _ b ch k).trans ?_
  exact chanFirst_apply _ _ b ch (rowOf k) (colOf k)

/-- The first floor division: each index word divided by 16384. -/
theorem v4_at (c : Dev nD) (i : S8x64x16384.Idx) :
    (V (F := Ideal) m c main_v4 : S8x64x16384.Idx → BitVec 32) i
      = fdivW ((V (F := Ideal) m c main_v3 : S8x64x16384.Idx → BitVec 32) i) 16384#32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  dsimp only [StableHlo.TRef.toBuf, StableHlo.TRef.ofBuf, cast_eq, id_eq]
  rfl

/-- The second floor division: each index word divided by 64. -/
theorem v5_at (c : Dev nD) (i : S8x64x16384.Idx) :
    (V (F := Ideal) m c main_v5 : S8x64x16384.Idx → BitVec 32) i
      = fdivW ((V (F := Ideal) m c main_v3 : S8x64x16384.Idx → BitVec 32) i) 64#32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  dsimp only [StableHlo.TRef.toBuf, StableHlo.TRef.ofBuf, cast_eq, id_eq]
  rfl

/-- The remainder: the second quotient modulo 256. -/
theorem v6_at (c : Dev nD) (i : S8x64x16384.Idx) :
    (V (F := Ideal) m c main_v6 : S8x64x16384.Idx → BitVec 32) i
      = pmodW ((V (F := Ideal) m c main_v5 : S8x64x16384.Idx → BitVec 32) i) 256#32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  dsimp only [StableHlo.TRef.toBuf, StableHlo.TRef.ofBuf, cast_eq, id_eq]
  rfl

/-- The three arrays the region is handed are the broadcasts into a trailing unit axis. -/
theorem v7_eq (c : Dev nD) :
    (V (F := Ideal) m c main_v7 : S8x64x16384x1.Idx → EReal)
      = broadcastInDim S8x64x16384x1 ![0, 1, 2] bcast_S8x64x16384_S8x64x16384x1_0_1_2
          (V (F := Ideal) m c main_v2 : S8x64x16384.Idx → EReal) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
theorem v8_eq (c : Dev nD) :
    (V (F := Ideal) m c main_v8 : S8x64x16384x1.Idx → BitVec 32)
      = broadcastInDim S8x64x16384x1 ![0, 1, 2] bcast_S8x64x16384_S8x64x16384x1_0_1_2
          (V (F := Ideal) m c main_v4 : S8x64x16384.Idx → BitVec 32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
theorem v9_eq (c : Dev nD) :
    (V (F := Ideal) m c main_v9 : S8x64x16384x1.Idx → BitVec 32)
      = broadcastInDim S8x64x16384x1 ![0, 1, 2] bcast_S8x64x16384_S8x64x16384x1_0_1_2
          (V (F := Ideal) m c main_v6 : S8x64x16384.Idx → BitVec 32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-- The value column the region is handed: batch `b`, channel `ch`, flattened position `k` holds the input element of
    that batch and channel at `k`'s row and column. -/
theorem v7_apply (c : Dev nD) (b : Fin 8) (ch : Fin 64) (k : Fin 16384) :
    (V (F := Ideal) m c main_v7 : S8x64x16384x1.Idx → EReal) (ix4 b ch k 0)
      = (m ((c.tc : Thread nD τ).loc main_arg0) : S8x128x128x64.Idx → EReal) (ix4 b (rowOf k) (colOf k) ch) := by
  rw [v7_eq]
  exact (bcastUnit_apply _ _ b ch k 0).trans (v2_at m c b ch k)

/-- The row column the region is handed: the destination row of the index word at the same place. -/
theorem v8_apply (c : Dev nD) (b : Fin 8) (ch : Fin 64) (k : Fin 16384) :
    (V (F := Ideal) m c main_v8 : S8x64x16384x1.Idx → BitVec 32) (ix4 b ch k 0)
      = ydec ((m ((c.tc : Thread nD τ).loc main_arg1) : S8x128x128x64.Idx → BitVec 32) (ix4 b (rowOf k) (colOf k) ch)) := by
  rw [v8_eq]
  refine (bcastUnit_apply _ _ b ch k 0).trans ?_
  rw [v4_at, v3_at]
  rfl

/-- The column column the region is handed: the destination column of the index word at the same place. -/
theorem v9_apply (c : Dev nD) (b : Fin 8) (ch : Fin 64) (k : Fin 16384) :
    (V (F := Ideal) m c main_v9 : S8x64x16384x1.Idx → BitVec 32) (ix4 b ch k 0)
      = xdec ((m ((c.tc : Thread nD τ).loc main_arg1) : S8x128x128x64.Idx → BitVec 32) (ix4 b (rowOf k) (colOf k) ch)) := by
  rw [v9_eq]
  refine (bcastUnit_apply _ _ b ch k 0).trans ?_
  rw [v6_at, v5_at, v3_at]
  rfl

end Cert.KernelIdeal.UnpoolHost

end
-- ==== Proof.KernelTail.lean ====
/-
  After the region one transposition moves the channel axis last: the result at `(b, Y, X, ch)` is the region's output
  array at `(b, ch, Y, X)`. The run also leaves both arguments as they were.
-/
import proofs.«422051_j75591424410236_3_alg».proof.Proof.Gen.KernelIdeal.Frame
import proofs.«422051_j75591424410236_3_alg».proof.Proof.Spec
import Idealize.ShloMosaic.Lib.ValueIdx
import Idealize.ShloMosaic.Lib.Pipeline.Value
import Idealize.ShloMosaic.Lib.StableHlo.Run

noncomputable section

namespace Cert.KernelIdeal.UnpoolTail

open Idealize.ShloMosaic Idealize.ShloMosaic.TcCoe Idealize.ShloMosaic.ValueIdx Idealize.SL.Sem
open Cert.KernelIdeal Cert.KernelIdeal.Gen

/-- A transpose by `[0, 2, 3, 1]` (the second axis moved last) read at `(b, Y, X, ch)` is the operand at
    `(b, ch, Y, X)`: result axis `e` is source axis `perm[e]`. -/
theorem transpose_0231_apply {α : Type} {n k h w : ℕ} (x : (⟨4, ![n, k, h, w]⟩ : Shape).Idx → α)
    (ht : (⟨4, ![n, k, h, w]⟩ : Shape).Transposes [0, 2, 3, 1] ⟨4, ![n, h, w, k]⟩)
    (b : Fin n) (Y : Fin h) (X : Fin w) (ch : Fin k) :
    transpose ⟨4, ![n, h, w, k]⟩ [0, 2, 3, 1] x ht (ix4 b Y X ch) = x (ix4 b ch Y X) :=
  transpose_apply _ x ht _ _ fun e => match e with | ⟨0, _⟩ => rfl | ⟨1, _⟩ => rfl | ⟨2, _⟩ => rfl | ⟨3, _⟩ => rfl

/-- What the one host operation after the region leaves in the result buffer: the transpose of the region's output
    array as the region left it. -/
theorem tail_v11 (m : (ℓ : Loc nD τ sig) → Buf (Elt Ideal) ℓ) (c : Dev nD) :
    Pipeline.afterTail₀ cfgs (dats (F := Ideal) m) 0 (V0 m) [hostOps1] c main_v11
      = transpose S8x256x256x64 [0, 2, 3, 1]
          ((dats (F := Ideal) m 0 c).arrAt 3 cfg0.N : S8x64x256x256.Idx → EReal)
          Facts₀.transposes_S8x64x256x256_S8x256x256x64_0_2_3_1 := by
  unfold Pipeline.afterTail₀
  show StableHlo.after hostOps1 _ (Proc.devRef .tc main_v11) = _
  after_results
  rw [Pipeline.withArrays_arr spec0 launch0.win.arr_inj c _ _ 3]

/-- The idealized kernel's run read at its result: the result array is the region's output array with the channel axis
    moved last, and the arguments are unchanged. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (∀ (b : Fin 8) (Y X : Fin 256) (ch : Fin 64),
        (r.2.mem ((c.tc : Thread nD τ).loc main_v11) : S8x256x256x64.Idx → EReal) (ix4 b Y X ch)
          = ((dats (F := Ideal) m 0 c).arrAt 3 cfg0.N : S8x64x256x256.Idx → EReal) (ix4 b ch Y X))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨fun b Y X ch => by
        have h11 := (h c).2 main_v11 (Pipeline.mem_restRefs_of main_v11 (by decide) (by decide))
        rw [h11, tail_v11 m c]
        exact transpose_0231_apply _ _ b Y X ch,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.UnpoolTail

end
-- ==== Proof.KernelValue.lean ====
/-
  The kernel's whole run. Grid point `(b, ch)` writes block `(b, ch)` of the region's output array, and that block is
  the plane `(Y, X) ↦ ∑ₖ if rowₖ = Y ∧ colₖ = X then vₖ else 0` of the input elements of batch `b` and channel `ch`; the
  blocks tile the array, so the array is that one function of its four coordinates. Summing over positions `k` is
  summing over rows and columns, and the final transposition puts the channel last: the result is the scatter-sum.
-/
import proofs.«422051_j75591424410236_3_alg».proof.Proof.Gen.KernelIdeal.Frame
import proofs.«422051_j75591424410236_3_alg».proof.Proof.Spec
import proofs.«422051_j75591424410236_3_alg».proof.Proof.Sums
import proofs.«422051_j75591424410236_3_alg».proof.Proof.KernelBody
import proofs.«422051_j75591424410236_3_alg».proof.Proof.KernelHost
import proofs.«422051_j75591424410236_3_alg».proof.Proof.KernelTail
import Idealize.ShloMosaic.Lib.ValueIdx
import Idealize.ShloMosaic.Lib.Pipeline.Value
import Idealize.ShloMosaic.Lib.StableHlo.Run

noncomputable section

namespace Cert.KernelIdeal.UnpoolValue

open Idealize.ShloMosaic Idealize.ShloMosaic.TcCoe Idealize.ShloMosaic.ValueIdx Idealize.SL.Sem
open Cert.KernelIdeal Cert.KernelIdeal.Gen Cert.Unpool

/-! ## The region's result array as one function of the arguments -/

/-- The region's result at batch `b`, channel `ch`, row `Y`, column `X`: the sum over the flattened positions `k` of the
    input element of that batch and channel at `k`'s row and column, where its index word names `(Y, X)`. -/
def planeAt (x : SIn.Idx → EReal) (idx : SIn.Idx → BitVec 32) (b : Fin 8) (ch : Fin 64) (Y X : Fin 256) : EReal :=
  ∑ k : Fin 16384,
    if ydec (idx (ix4 b (rowOf k) (colOf k) ch)) = BitVec.ofNat 32 Y.val ∧ xdec (idx (ix4 b (rowOf k) (colOf k) ch)) = BitVec.ofNat 32 X.val
    then x (ix4 b (rowOf k) (colOf k) ch) else 0

/-- The whole result array of the region, channel planes first. -/
def plane (x : SIn.Idx → EReal) (idx : SIn.Idx → BitVec 32) : S8x64x256x256.Idx → EReal :=
  fun o => planeAt x idx (o 0) (o 1) (o 2) (o 3)

/-- Summed by rows and columns, an element of a channel plane is the scatter-sum's element. -/
theorem planeAt_eq_unpoolAt (x : SIn.Idx → EReal) (idx : SIn.Idx → BitVec 32) (b : Fin 8) (ch : Fin 64) (Y X : Fin 256) :
    planeAt x idx b ch Y X = unpoolAt x idx b Y X ch :=
  sum_plane fun h w =>
    if ydec (idx (ix4 b h w ch)) = BitVec.ofNat 32 Y.val ∧ xdec (idx (ix4 b h w ch)) = BitVec.ofNat 32 X.val
    then x (ix4 b h w ch) else 0

/-- The array at an index given by its coordinates. -/
theorem plane_ix4 (x : SIn.Idx → EReal) (idx : SIn.Idx → BitVec 32) (b : Fin 8) (ch : Fin 64) (Y X : Fin 256) :
    plane x idx (ix4 b ch Y X) = planeAt x idx b ch Y X := rfl

/-! ## One grid point -/

theorem hz4 : (![0, 0, 0, 0] : Fin 4 → Nat) = fun _ => 0 := funext fun a => by fin_cases a <;> rfl

/-- One grid point's block from the three columns it is handed: when the value column is the input's elements of batch
    `b` and channel `ch` in flattened order and the two word columns their destination rows and columns, the block is
    that batch's and channel's plane of the result. -/
theorem pay_point (v : Vec Ideal S1x1x16384x1 .f32) (yv xv : Vec Ideal S1x1x16384x1 .i32)
    (x : SIn.Idx → EReal) (idx : SIn.Idx → BitVec 32) (b : Fin 8) (ch : Fin 64)
    (hv : ∀ k : Fin 16384, (v (ix4 0 0 k 0) : EReal) = x (ix4 b (rowOf k) (colOf k) ch))
    (hy : ∀ k : Fin 16384, (yv (ix4 0 0 k 0) : BitVec 32) = ydec (idx (ix4 b (rowOf k) (colOf k) ch)))
    (hx : ∀ k : Fin 16384, (xv (ix4 0 0 k 0) : BitVec 32) = xdec (idx (ix4 b (rowOf k) (colOf k) ch)))
    (hfin : ∀ i : SIn.Idx, ∃ r : ℝ, x i = (r : EReal)) (u0 u1 : Fin 1) (Y X : Fin 256) :
    (k0_pay1 (F := Ideal) v yv xv (ix4 u0 u1 Y X) : EReal) = planeAt x idx b ch Y X := by
  obtain rfl : u0 = 0 := Subsingleton.elim _ _
  obtain rfl : u1 = 0 := Subsingleton.elim _ _
  refine (UnpoolBody.pay_apply v yv xv (fun k => ?_) Y X).trans ?_
  · obtain ⟨r, hr⟩ := hfin (ix4 b (rowOf k) (colOf k) ch)
    exact ⟨r, (hv k).trans hr⟩
  · unfold planeAt
    refine Finset.sum_congr rfl fun k _ => ?_
    rw [hv k, hy k, hx k]

/-- The block indices of the four windows at a grid point, decided over the grid: the point's batch and channel, then
    zeros. -/
theorem idx_facts : ∀ t : Fin cfg0.N,
    (win0_0.index t (0 : Fin 4) = t.val / 64 ∧ win0_0.index t (1 : Fin 4) = t.val % 64 ∧ win0_0.index t (2 : Fin 4) = 0 ∧ win0_0.index t (3 : Fin 4) = 0)
    ∧ (win0_1.index t (0 : Fin 4) = t.val / 64 ∧ win0_1.index t (1 : Fin 4) = t.val % 64 ∧ win0_1.index t (2 : Fin 4) = 0 ∧ win0_1.index t (3 : Fin 4) = 0)
    ∧ (win0_2.index t (0 : Fin 4) = t.val / 64 ∧ win0_2.index t (1 : Fin 4) = t.val % 64 ∧ win0_2.index t (2 : Fin 4) = 0 ∧ win0_2.index t (3 : Fin 4) = 0)
    ∧ (win0_3.index t (0 : Fin 4) = t.val / 64 ∧ win0_3.index t (1 : Fin 4) = t.val % 64 ∧ win0_3.index t (2 : Fin 4) = 0 ∧ win0_3.index t (3 : Fin 4) = 0) :=
  (by decide +kernel : ∀ t : Fin grid0.N, _)

variable (m : (ℓ : Loc nD τ sig) → Buf (Elt Ideal) ℓ)

/-- The value window's block at a grid point, position `k`: the value column at the point's batch and channel. -/
theorem iblk0_apply (c : Dev nD) (t : Fin cfg0.N) (b : Fin 8) (ch : Fin 64) (hb : b.val = t.val / 64) (hc : ch.val = t.val % 64)
    (k : Fin 16384) :
    ((iblk m c 0 t : Vec Ideal S1x1x16384x1 .f32) (ix4 0 0 k 0) : EReal)
      = (V (F := Ideal) m c main_v7 : S8x64x16384x1.Idx → EReal) (ix4 b ch k 0) := by
  obtain ⟨⟨e0, e1, e2, e3⟩, -⟩ := idx_facts t
  show (V (F := Ideal) m c main_v7 : S8x64x16384x1.Idx → EReal) (((cfg0.win 0).blk t).view.emb (ix4 0 0 k 0)) = _
  refine congrArg _ (funext fun a => Fin.ext ?_)
  match a with
  | ⟨0, _⟩ => show win0_0.index t (0 : Fin 4) * 1 + 1 * 0 = b.val; omega
  | ⟨1, _⟩ => show win0_0.index t (1 : Fin 4) * 1 + 1 * 0 = ch.val; omega
  | ⟨2, _⟩ => show win0_0.index t (2 : Fin 4) * 16384 + 1 * k.val = k.val; omega
  | ⟨3, _⟩ => show win0_0.index t (3 : Fin 4) * 1 + 1 * 0 = 0; omega

/-- The row window's block at a grid point, position `k`: the row column at the point's batch and channel. -/
theorem iblk1_apply (c : Dev nD) (t : Fin cfg0.N) (b : Fin 8) (ch : Fin 64) (hb : b.val = t.val / 64) (hc : ch.val = t.val % 64)
    (k : Fin 16384) :
    ((iblk m c 1 t : Vec Ideal S1x1x16384x1 .i32) (ix4 0 0 k 0) : BitVec 32)
      = (V (F := Ideal) m c main_v8 : S8x64x16384x1.Idx → BitVec 32) (ix4 b ch k 0) := by
  obtain ⟨-, ⟨e0, e1, e2, e3⟩, -⟩ := idx_facts t
  show (V (F := Ideal) m c main_v8 : S8x64x16384x1.Idx → BitVec 32) (((cfg0.win 1).blk t).view.emb (ix4 0 0 k 0)) = _
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = ch.val; omega
  | ⟨2, _⟩ => show win0_1.index t (2 : Fin 4) * 16384 + 1 * k.val = k.val; omega
  | ⟨3, _⟩ => show win0_1.index t (3 : Fin 4) * 1 + 1 * 0 = 0; omega

/-- The column window's block at a grid point, position `k`: the column column at the point's batch and channel. -/
theorem iblk2_apply (c : Dev nD) (t : Fin cfg0.N) (b : Fin 8) (ch : Fin 64) (hb : b.val = t.val / 64) (hc : ch.val = t.val % 64)
    (k : Fin 16384) :
    ((iblk m c 2 t : Vec Ideal S1x1x16384x1 .i32) (ix4 0 0 k 0) : BitVec 32)
      = (V (F := Ideal) m c main_v9 : S8x64x16384x1.Idx → BitVec 32) (ix4 b ch k 0) := by
  obtain ⟨-, -, ⟨e0, e1, e2, e3⟩, -⟩ := idx_facts t
  show (V (F := Ideal) m c main_v9 : S8x64x16384x1.Idx → BitVec 32) (((cfg0.win 2).blk t).view.emb (ix4 0 0 k 0)) = _
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = ch.val; omega
  | ⟨2, _⟩ => show win0_2.index t (2 : Fin 4) * 16384 + 1 * k.val = k.val; omega
  | ⟨3, _⟩ => show win0_2.index t (3 : Fin 4) * 1 + 1 * 0 = 0; omega

/-! ## What a grid point writes back, and the whole array after the region -/

/-- The result window's block at a grid point, read off an array: element `(Y, X)` of the block is the array's element at
    the point's batch and channel. -/
theorem read_blk3 (t : Fin cfg0.N) (G : S8x64x256x256.Idx → EReal) (b : Fin 8) (ch : Fin 64) (hb : b.val = t.val / 64)
    (hc : ch.val = t.val % 64) (u0 u1 : Fin 1) (Y X : Fin 256) :
    ((((cfg0.win 3).blk t).view.read (Elt Ideal) G : S1x1x256x256.Idx → EReal) (ix4 u0 u1 Y X) : EReal) = G (ix4 b ch Y X) := by
  obtain ⟨-, -, -, e0, e1, e2, e3⟩ := idx_facts t
  have hu0 : u0.val = 0 := by omega
  have hu1 : u1.val = 0 := by omega
  show G (((cfg0.win 3).blk t).view.emb (ix4 u0 u1 Y X)) = _
  refine congrArg G (funext fun a => Fin.ext ?_)
  match a with
  | ⟨0, _⟩ => show win0_3.index t (0 : Fin 4) * 1 + 1 * u0.val = b.val; omega
  | ⟨1, _⟩ => show win0_3.index t (1 : Fin 4) * 1 + 1 * u1.val = ch.val; omega
  | ⟨2, _⟩ => show win0_3.index t (2 : Fin 4) * 256 + 1 * Y.val = Y.val; omega
  | ⟨3, _⟩ => show win0_3.index t (3 : Fin 4) * 256 + 1 * X.val = X.val; omega

/-- What grid point `t` writes back is its block of `plane` of the arguments: the three columns the point is handed are
    the input's elements, their destination rows and their destination columns at the point's batch and channel. -/
theorem flushed_eq
    (hfin : ∀ (c : Dev nD) (i : S8x128x128x64.Idx),
      ∃ r : ℝ, ((m ((c.tc : Thread nD τ).loc main_arg0) : S8x128x128x64.Idx → EReal) i : EReal) = (r : EReal))
    (c : Dev nD) (t : Fin cfg0.N) :
    (dats m 0 c).flushed 3 t = ((cfg0.win 3).blk t).view.read (Elt Ideal)
      (plane (m ((c.tc : Thread nD τ).loc main_arg0)) (m ((c.tc : Thread nD τ).loc main_arg1))) := by
  have hN : cfg0.N = 512 := N_0
  have ht : t.val < 512 := hN ▸ t.isLt
  show (cfg0.win 3).cut (grid0.coords t) ((dats m 0 c).after 3 t) = _
  rw [after0_3]
  unfold out0_3
  rw [View.canon_unit_zero hz4]
  simp only [View.ld_unit_zero (S := S1x1x16384x1) hz4]
  funext j
  obtain ⟨u0, u1, Y, X, rfl⟩ : ∃ (u0 u1 : Fin 1) (Y X : Fin 256), j = ix4 u0 u1 Y X :=
    ⟨_, _, _, _, eq_ix4 (n0 := 1) (n1 := 1) (n2 := 256) (n3 := 256) j⟩
  refine (pay_point (iblk m c 0 t) (iblk m c 1 t) (iblk m c 2 t)
    (m ((c.tc : Thread nD τ).loc main_arg0)) (m ((c.tc : Thread nD τ).loc main_arg1))
    ⟨t.val / 64, by omega⟩ ⟨t.val % 64, by omega⟩ (fun k => ?_) (fun k => ?_) (fun k => ?_) (hfin c) u0 u1 Y X).trans ?_
  · exact (iblk0_apply m c t _ _ rfl rfl k).trans (UnpoolHost.v7_apply m c _ _ k)
  · exact (iblk1_apply m c t _ _ rfl rfl k).trans (UnpoolHost.v8_apply m c _ _ k)
  · exact (iblk2_apply m c t _ _ rfl rfl k).trans (UnpoolHost.v9_apply m c _ _ k)
  · exact ((plane_ix4 _ _ _ _ Y X).symm.trans (read_blk3 t _ _ _ rfl rfl u0 u1 Y X).symm)

/-- An index of the result array lies in grid point `t`'s block iff each coordinate lies in the block's range on its axis. -/
theorem mem_blk (t : Fin cfg0.N) (i : S8x64x256x256.Idx) :
    i ∈ ((cfg0.win 3).blk t).view.set ↔ ∀ a : Fin 4, win0_3.index t a * S1x1x256x256.size a ≤ (i a).val
      ∧ (i a).val < win0_3.index t a * S1x1x256x256.size a + S1x1x256x256.size a := by
  show i ∈ ((View.whole main_v10).slice (win0_3.rect t)).set ↔ _
  rw [View.set_slice_whole, Rect.mem_set_unit]
  exact Iff.rfl

/-- Every index of the result array lies in the block of the grid point of its batch and channel. -/
theorem cover (i : S8x64x256x256.Idx) :
    ∃ t : Fin cfg0.N, (cfg0.win 3).flush t = true ∧ i ∈ ((cfg0.win 3).blk t).view.set := by
  have hN : cfg0.N = 512 := N_0
  have h0 : (i 0).val < 8 := (i 0).isLt
  have h1 : (i 1).val < 64 := (i 1).isLt
  have h2 : (i 2).val < 256 := (i 2).isLt
  have h3 : (i 3).val < 256 := (i 3).isLt
  obtain ⟨t, ht⟩ : ∃ t : Fin cfg0.N, t.val = (i 0).val * 64 + (i 1).val := ⟨⟨(i 0).val * 64 + (i 1).val, by omega⟩, rfl⟩
  obtain ⟨-, -, -, e0, e1, e2, e3⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- The region's result array after the run is `plane` of the arguments. -/
theorem final
    (hfin : ∀ (c : Dev nD) (i : S8x128x128x64.Idx),
      ∃ r : ℝ, ((m ((c.tc : Thread nD τ).loc main_arg0) : S8x128x128x64.Idx → EReal) i : EReal) = (r : EReal))
    (c : Dev nD) :
    (dats m 0 c).arrAt 3 cfg0.N
      = plane (m ((c.tc : Thread nD τ).loc main_arg0)) (m ((c.tc : Thread nD τ).loc main_arg1)) :=
  (dats m 0 c).arrAt_eq_of_cover 3 (plane (m ((c.tc : Thread nD τ).loc main_arg0)) (m ((c.tc : Thread nD τ).loc main_arg1)))
    (fun t _ => flushed_eq m hfin c t) cover

/-! ## The run -/

/-- The idealized kernel's run: it ends with its result array at the scatter-sum of its arguments (the input values real
    numbers), the arguments unchanged. -/
theorem run (m : (ℓ : Loc nD τ sig) → Buf (Elt Ideal) ℓ) (ρ : Dev nD → PrngReg)
    (hfin : ∀ (c : Dev nD) (i : S8x128x128x64.Idx),
      ∃ r : ℝ, ((m ((c.tc : Thread nD τ).loc main_arg0) : S8x128x128x64.Idx → EReal) i : EReal) = (r : EReal)) :
    θ_run (defs (F := Ideal)) (onTc (τ := τ) (main (F := Ideal))) ⟨m, fun _ => 0, ρ⟩ (fun r => ∀ c : Dev nD,
      r.2.mem ((c.tc : Thread nD τ).loc main_v11)
          = unpool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨?_, (h c).2.1, (h c).2.2⟩) (UnpoolTail.run_tail m ρ)
  funext o
  obtain ⟨b, Y, X, ch, rfl⟩ : ∃ (b : Fin 8) (Y X : Fin 256) (ch : Fin 64), o = ix4 b Y X ch :=
    ⟨_, _, _, _, eq_ix4 (n0 := 8) (n1 := 256) (n2 := 256) (n3 := 64) o⟩
  exact ((h c).1 b Y X ch).trans ((congrFun (final m hfin c) (ix4 b ch Y X)).trans
    ((plane_ix4 _ _ b ch Y X).trans ((planeAt_eq_unpoolAt _ _ b ch Y X).trans (unpool_ix4 _ _ b Y X ch).symm)))

end Cert.KernelIdeal.UnpoolValue

end
-- ==== Proof.RefTerm.lean ====
/-
  The reference's result as one term of its arguments: the zero array to which every flattened input value is added at
  the place named by its row of a four-column index table — batch number, destination row, destination column,
  channel number, each entry counted from the end of its axis when negative.
-/
import proofs.«422051_j75591424410236_3_alg».proof.ReferenceIdeal
import proofs.«422051_j75591424410236_3_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- A scalar spread over the whole input shape. -/
abbrev spread {α : Type} (c : S_.Idx → α) : S8x128x128x64.Idx → α := broadcastInDim S8x128x128x64 ![] bcast_S_S8x128x128x64 c
/-- A scalar spread over the flattened input. -/
abbrev spreadFlat {α : Type} (c : S_.Idx → α) : S8388608.Idx → α := broadcastInDim S8388608 ![] bcast_S_S8388608 c

/-- Floor division of every element by the scalar `c`. -/
def fdivV (a : IVec S8x128x128x64 32) (c : IVec S_ 32) : IVec S8x128x128x64 32 :=
  select (andi (cmpi .ne (signi a) (spread (signi c))) (cmpi .ne (Host.remsi a (spread c)) (spread (constantI S_ 32 0#32))))
    (subi (Host.divsi a (spread c)) (spread (constantI S_ 32 1#32))) (Host.divsi a (spread c))

/-- The scalar divisor, a zero read as one. -/
def safeDiv (c : IVec S_ 32) : IVec S_ 32 := select (cmpi .eq c (constantI S_ 32 0#32)) (constantI S_ 32 1#32) c

/-- The remainder of every element by the scalar `c`, with the divisor's sign. -/
def pmodV (a : IVec S8x128x128x64 32) (c : IVec S_ 32) : IVec S8x128x128x64 32 :=
  select
    (andi (cmpi .ne (cmpi .slt (Host.remsi a (spread (safeDiv c))) (spread (constantI S_ 32 0#32)))
                    (spread (cmpi .slt (safeDiv c) (constantI S_ 32 0#32))))
          (cmpi .ne (Host.remsi a (spread (safeDiv c))) (spread (constantI S_ 32 0#32))))
    (addi (Host.remsi a (spread (safeDiv c))) (spread (safeDiv c)))
    (Host.remsi a (spread (safeDiv c)))

/-- A flattened index column with a negative entry counted from the axis' end `n`. -/
def fromEnd (n : BitVec 32) (v : IVec S8388608 32) : IVec S8388608 32 :=
  select (cmpi .slt v (spreadFlat (constantI S_ 32 0#32))) (addi v (spreadFlat (constantI S_ 32 n))) v

/-- One column of the scatter's index table from an index array of the input's shape. -/
def column (n : BitVec 32) (v : IVec S8x128x128x64 32) : IVec S8388608x1 32 :=
  broadcastInDim S8388608x1 ![0] bcast_S8388608_S8388608x1_0 (fromEnd n (shapeCast S8388608 v shapeCasts_S8x128x128x64_S8388608))

/-- The batch number of every input element. -/
def batchOf : IVec S8x128x128x64 32 :=
  muli (broadcastInDim S8x128x128x64 ![0, 1, 2, 3] bcast_S8x1x1x1_S8x128x128x64_0_1_2_3
          (broadcastInDim S8x1x1x1 ![0] bcast_S8_S8x1x1x1_0 (iotaInDim S8 32 0)))
       (spread (constantI S_ 32 1#32))

/-- The channel number of every input element. -/
def chanOf : IVec S8x128x128x64 32 :=
  muli (broadcastInDim S8x128x128x64 ![0, 1, 2, 3] bcast_S1x1x1x64_S8x128x128x64_0_1_2_3
          (broadcastInDim S1x1x1x64 ![3] bcast_S64_S1x1x1x64_3 (iotaInDim S64 32 0)))
       (spread (constantI S_ 32 1#32))

/-- The reference's result as one term of its arguments: the zero array with every input value added at the place its
    index word names. -/
def refOut (x : FVec F S8x128x128x64 .f32) (idx : IVec S8x128x128x64 32) : FVec F S8x256x256x64 .f32 :=
  Host.scatterAdd scatter_S8x256x256x64_S8388608x4_S8388608_n_0123_0123_1
    (broadcastInDim S8x256x256x64 ![] bcast_S_S8x256x256x64 (constant S_ .f32 0x00000000#32))
    (concatenate S8388608x4 1
      [⟨S8388608x1, column 8#32 batchOf⟩,
       ⟨S8388608x1, column 256#32 (fdivV idx (constantI S_ 32 16384#32))⟩,
       ⟨S8388608x1, column 256#32 (pmodV (fdivV idx (constantI S_ 32 64#32)) (constantI S_ 32 256#32))⟩,
       ⟨S8388608x1, column 64#32 chanOf⟩]
      concatenates_S8388608x1_S8388608x1_S8388608x1_S8388608x1_S8388608x4_d1)
    (shapeCast S8388608 x shapeCasts_S8x128x128x64_S8388608)

end Cert.ReferenceIdeal.RefTerm

end
-- ==== Proof.RefRun.lean ====
/-
  The reference's run. Its program is a straight line of a hundred and eleven host operations — the two floor divisions
  and the remainder with their outlined steps in place — so every weakly fair execution performs them in order and
  ends with each buffer at the fold of the operations over the launch memory. Read at the result buffer, stretch by
  stretch, that fold is the one term of the two arguments: the zero array with every flattened input value added at the
  row of the four-column index table that its position names; no operation writes an argument.
-/
import proofs.«422051_j75591424410236_3_alg».proof.ReferenceIdeal
import proofs.«422051_j75591424410236_3_alg».proof.Proof.Gen.ReferenceIdeal
import proofs.«422051_j75591424410236_3_alg».proof.Proof.RefTerm
import Idealize.ShloMosaic.Lib.StableHlo
import Idealize.ShloMosaic.Lib.StableHlo.Run
import Idealize.ShloMosaic.Lib.Pipeline.Frame

noncomputable section

namespace Cert.ReferenceIdeal.RefRun

open Idealize.ShloMosaic Idealize.ShloMosaic.TcCoe Idealize.SL.Sem
open Cert.ReferenceIdeal Cert.ReferenceIdeal.RefTerm
open Idealize.ShloMosaic.StableHlo Cert.ReferenceIdeal.Facts₀

variable {F : FTy → Type} [FloatOps F]

/-- The reference's operations in order, each call's body listed at its call site over that call's buffers: the
    index word's floor division by 16384 (seventeen operations: the divisor converted and spread, quotient, the two
    signs, remainder, the correction's test, the select), the same by 64, the remainder of that quotient by 256
    (twenty-one: the zero divisor read as one, remainder, the sign test, the select), the batch and channel
    numbers, the four index columns flattened with a negative entry counted from the axis' end, their concatenation,
    and the scatter-add of the flattened input into the zero array. -/
abbrev ops : List (HloOp τ sig (Elt F)) :=
  [ StableHlo.nullary main_c (constantI S_ 32 16384#32),
    StableHlo.TRef.unary (.of main_c) main_call0.v0 id,
    StableHlo.TRef.unary main_call0.v0 main_call0.v1 (broadcastInDim S8x128x128x64 ![] bcast_S_S8x128x128x64),
    StableHlo.TRef.binary (.of main_arg1) main_call0.v1 main_call0.v2 Host.divsi,
    StableHlo.TRef.unary (.of main_arg1) main_call0.v3 signi,
    StableHlo.TRef.unary main_call0.v0 main_call0.v4 signi,
    StableHlo.TRef.unary main_call0.v4 main_call0.v5 (broadcastInDim S8x128x128x64 ![] bcast_S_S8x128x128x64),
    StableHlo.TRef.binary main_call0.v3 main_call0.v5 main_call0.v6 (cmpi .ne),
    StableHlo.TRef.unary main_call0.v0 main_call0.v7 (broadcastInDim S8x128x128x64 ![] bcast_S_S8x128x128x64),
    StableHlo.TRef.binary (.of main_arg1) main_call0.v7 main_call0.v8 Host.remsi,
    StableHlo.TRef.nullary main_call0.c (constantI S_ 32 0#32),
    StableHlo.TRef.unary main_call0.c main_call0.v9 (broadcastInDim S8x128x128x64 ![] bcast_S_S8x128x128x64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8x128x128x64 ![] bcast_S_S8x128x128x64),
    StableHlo.TRef.binary main_call0.v2 main_call0.v12 main_call0.v13 subi,
    StableHlo.TRef.ternary main_call0.v11 main_call0.v13 main_call0.v2 main_call0.call0.v0 select,
    StableHlo.nullary main_c_0 (constantI S_ 32 64#32),
    StableHlo.TRef.unary (.of main_c_0) main_call1.v0 id,
    StableHlo.TRef.unary main_call1.v0 main_call1.v1 (broadcastInDim S8x128x128x64 ![] bcast_S_S8x128x128x64),
    StableHlo.TRef.binary (.of main_arg1) main_call1.v1 main_call1.v2 Host.divsi,
    StableHlo.TRef.unary (.of main_arg1) main_call1.v3 signi,
    StableHlo.TRef.unary main_call1.v0 main_call1.v4 signi,
    StableHlo.TRef.unary main_call1.v4 main_call1.v5 (broadcastInDim S8x128x128x64 ![] bcast_S_S8x128x128x64),
    StableHlo.TRef.binary main_call1.v3 main_call1.v5 main_call1.v6 (cmpi .ne),
    StableHlo.TRef.unary main_call1.v0 main_call1.v7 (broadcastInDim S8x128x128x64 ![] bcast_S_S8x128x128x64),
    StableHlo.TRef.binary (.of main_arg1) main_call1.v7 main_call1.v8 Host.remsi,
    StableHlo.TRef.nullary main_call1.c (constantI S_ 32 0#32),
    StableHlo.TRef.unary main_call1.c main_call1.v9 (broadcastInDim S8x128x128x64 ![] bcast_S_S8x128x128x64),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S8x128x128x64 ![] bcast_S_S8x128x128x64),
    StableHlo.TRef.binary main_call1.v2 main_call1.v12 main_call1.v13 subi,
    StableHlo.TRef.ternary main_call1.v11 main_call1.v13 main_call1.v2 main_call1.call0.v0 select,
    StableHlo.nullary main_c_1 (constantI S_ 32 256#32),
    StableHlo.TRef.unary (.of main_c_1) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8x128x128x64 ![] bcast_S_S8x128x128x64),
    StableHlo.TRef.binary (.of main_v1) main_call2.v3 main_call2.v4 Host.remsi,
    StableHlo.TRef.nullary main_call2.c_1 (constantI S_ 32 0#32),
    StableHlo.TRef.unary main_call2.c_1 main_call2.v5 (broadcastInDim S8x128x128x64 ![] bcast_S_S8x128x128x64),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8x128x128x64 ![] bcast_S_S8x128x128x64),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8x128x128x64 ![] bcast_S_S8x128x128x64),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8x128x128x64 ![] bcast_S_S8x128x128x64),
    StableHlo.TRef.binary main_call2.v4 main_call2.v13 main_call2.v14 addi,
    StableHlo.TRef.ternary main_call2.v12 main_call2.v14 main_call2.v4 main_call2.v15 select,
    StableHlo.nullary main_v3 (iotaInDim S8 32 0),
    StableHlo.unary main_v3 main_v4 (broadcastInDim S8x1x1x1 ![0] bcast_S8_S8x1x1x1_0 : (⟨S8, .i32⟩ : BufTy).Contents (Elt F) → (⟨S8x1x1x1, .i32⟩ : BufTy).Contents (Elt F)),
    StableHlo.nullary main_c_2 (constantI S_ 32 1#32),
    StableHlo.unary main_c_2 main_v5 (broadcastInDim S8x128x128x64 ![] bcast_S_S8x128x128x64 : (⟨S_, .i32⟩ : BufTy).Contents (Elt F) → (⟨S8x128x128x64, .i32⟩ : BufTy).Contents (Elt F)),
    StableHlo.unary main_v4 main_v6 (broadcastInDim S8x128x128x64 ![0, 1, 2, 3] bcast_S8x1x1x1_S8x128x128x64_0_1_2_3 : (⟨S8x1x1x1, .i32⟩ : BufTy).Contents (Elt F) → (⟨S8x128x128x64, .i32⟩ : BufTy).Contents (Elt F)),
    StableHlo.binary main_v6 main_v5 main_v7 (muli : (⟨S8x128x128x64, .i32⟩ : BufTy).Contents (Elt F) → (⟨S8x128x128x64, .i32⟩ : BufTy).Contents (Elt F) → (⟨S8x128x128x64, .i32⟩ : BufTy).Contents (Elt F)),
    StableHlo.nullary main_v8 (iotaInDim S64 32 0),
    StableHlo.nullary main_c_3 (constantI S_ 32 1#32),
    StableHlo.unary main_c_3 main_v9 (broadcastInDim S8x128x128x64 ![] bcast_S_S8x128x128x64 : (⟨S_, .i32⟩ : BufTy).Contents (Elt F) → (⟨S8x128x128x64, .i32⟩ : BufTy).Contents (Elt F)),
    StableHlo.unary main_v8 main_v10 (broadcastInDim S1x1x1x64 ![3] bcast_S64_S1x1x1x64_3 : (⟨S64, .i32⟩ : BufTy).Contents (Elt F) → (⟨S1x1x1x64, .i32⟩ : BufTy).Contents (Elt F)),
    StableHlo.unary main_v10 main_v11 (broadcastInDim S8x128x128x64 ![0, 1, 2, 3] bcast_S1x1x1x64_S8x128x128x64_0_1_2_3 : (⟨S1x1x1x64, .i32⟩ : BufTy).Contents (Elt F) → (⟨S8x128x128x64, .i32⟩ : BufTy).Contents (Elt F)),
    StableHlo.binary main_v11 main_v9 main_v12 (muli : (⟨S8x128x128x64, .i32⟩ : BufTy).Contents (Elt F) → (⟨S8x128x128x64, .i32⟩ : BufTy).Contents (Elt F) → (⟨S8x128x128x64, .i32⟩ : BufTy).Contents (Elt F)),
    StableHlo.reshape main_arg0 main_v13 rfl shapeCasts_S8x128x128x64_S8388608,
    StableHlo.nullary main_cst (constant S_ .f32 0x00000000#32),
    StableHlo.unary main_cst main_v14 (broadcastInDim S8x256x256x64 ![] bcast_S_S8x256x256x64 : (⟨S_, .f32⟩ : BufTy).Contents (Elt F) → (⟨S8x256x256x64, .f32⟩ : BufTy).Contents (Elt F)),
    StableHlo.reshape main_v7 main_v15 rfl shapeCasts_S8x128x128x64_S8388608,
    StableHlo.reshape main_v0 main_v16 rfl shapeCasts_S8x128x128x64_S8388608,
    StableHlo.reshape main_v2 main_v17 rfl shapeCasts_S8x128x128x64_S8388608,
    StableHlo.reshape main_v12 main_v18 rfl shapeCasts_S8x128x128x64_S8388608,
    StableHlo.nullary main_c_4 (constantI S_ 32 0#32),
    StableHlo.unary main_c_4 main_v19 (broadcastInDim S8388608 ![] bcast_S_S8388608 : (⟨S_, .i32⟩ : BufTy).Contents (Elt F) → (⟨S8388608, .i32⟩ : BufTy).Contents (Elt F)),
    StableHlo.binary main_v15 main_v19 main_v20 (cmpi .slt : (⟨S8388608, .i32⟩ : BufTy).Contents (Elt F) → (⟨S8388608, .i32⟩ : BufTy).Contents (Elt F) → (⟨S8388608, .i1⟩ : BufTy).Contents (Elt F)),
    StableHlo.nullary main_c_5 (constantI S_ 32 8#32),
    StableHlo.unary main_c_5 main_v21 (broadcastInDim S8388608 ![] bcast_S_S8388608 : (⟨S_, .i32⟩ : BufTy).Contents (Elt F) → (⟨S8388608, .i32⟩ : BufTy).Contents (Elt F)),
    StableHlo.binary main_v15 main_v21 main_v22 (addi : (⟨S8388608, .i32⟩ : BufTy).Contents (Elt F) → (⟨S8388608, .i32⟩ : BufTy).Contents (Elt F) → (⟨S8388608, .i32⟩ : BufTy).Contents (Elt F)),
    StableHlo.ternary main_v20 main_v22 main_v15 main_v23 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_6 (constantI S_ 32 0#32),
    StableHlo.unary main_c_6 main_v24 (broadcastInDim S8388608 ![] bcast_S_S8388608 : (⟨S_, .i32⟩ : BufTy).Contents (Elt F) → (⟨S8388608, .i32⟩ : BufTy).Contents (Elt F)),
    StableHlo.binary main_v16 main_v24 main_v25 (cmpi .slt : (⟨S8388608, .i32⟩ : BufTy).Contents (Elt F) → (⟨S8388608, .i32⟩ : BufTy).Contents (Elt F) → (⟨S8388608, .i1⟩ : BufTy).Contents (Elt F)),
    StableHlo.nullary main_c_7 (constantI S_ 32 256#32),
    StableHlo.unary main_c_7 main_v26 (broadcastInDim S8388608 ![] bcast_S_S8388608 : (⟨S_, .i32⟩ : BufTy).Contents (Elt F) → (⟨S8388608, .i32⟩ : BufTy).Contents (Elt F)),
    StableHlo.binary main_v16 main_v26 main_v27 (addi : (⟨S8388608, .i32⟩ : BufTy).Contents (Elt F) → (⟨S8388608, .i32⟩ : BufTy).Contents (Elt F) → (⟨S8388608, .i32⟩ : BufTy).Contents (Elt F)),
    StableHlo.ternary main_v25 main_v27 main_v16 main_v28 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_8 (constantI S_ 32 0#32),
    StableHlo.unary main_c_8 main_v29 (broadcastInDim S8388608 ![] bcast_S_S8388608 : (⟨S_, .i32⟩ : BufTy).Contents (Elt F) → (⟨S8388608, .i32⟩ : BufTy).Contents (Elt F)),
    StableHlo.binary main_v17 main_v29 main_v30 (cmpi .slt : (⟨S8388608, .i32⟩ : BufTy).Contents (Elt F) → (⟨S8388608, .i32⟩ : BufTy).Contents (Elt F) → (⟨S8388608, .i1⟩ : BufTy).Contents (Elt F)),
    StableHlo.nullary main_c_9 (constantI S_ 32 256#32),
    StableHlo.unary main_c_9 main_v31 (broadcastInDim S8388608 ![] bcast_S_S8388608 : (⟨S_, .i32⟩ : BufTy).Contents (Elt F) → (⟨S8388608, .i32⟩ : BufTy).Contents (Elt F)),
    StableHlo.binary main_v17 main_v31 main_v32 (addi : (⟨S8388608, .i32⟩ : BufTy).Contents (Elt F) → (⟨S8388608, .i32⟩ : BufTy).Contents (Elt F) → (⟨S8388608, .i32⟩ : BufTy).Contents (Elt F)),
    StableHlo.ternary main_v30 main_v32 main_v17 main_v33 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_10 (constantI S_ 32 0#32),
    StableHlo.unary main_c_10 main_v34 (broadcastInDim S8388608 ![] bcast_S_S8388608 : (⟨S_, .i32⟩ : BufTy).Contents (Elt F) → (⟨S8388608, .i32⟩ : BufTy).Contents (Elt F)),
    StableHlo.binary main_v18 main_v34 main_v35 (cmpi .slt : (⟨S8388608, .i32⟩ : BufTy).Contents (Elt F) → (⟨S8388608, .i32⟩ : BufTy).Contents (Elt F) → (⟨S8388608, .i1⟩ : BufTy).Contents (Elt F)),
    StableHlo.nullary main_c_11 (constantI S_ 32 64#32),
    StableHlo.unary main_c_11 main_v36 (broadcastInDim S8388608 ![] bcast_S_S8388608 : (⟨S_, .i32⟩ : BufTy).Contents (Elt F) → (⟨S8388608, .i32⟩ : BufTy).Contents (Elt F)),
    StableHlo.binary main_v18 main_v36 main_v37 (addi : (⟨S8388608, .i32⟩ : BufTy).Contents (Elt F) → (⟨S8388608, .i32⟩ : BufTy).Contents (Elt F) → (⟨S8388608, .i32⟩ : BufTy).Contents (Elt F)),
    StableHlo.ternary main_v35 main_v37 main_v18 main_v38 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v23 main_v39 (broadcastInDim S8388608x1 ![0] bcast_S8388608_S8388608x1_0 : (⟨S8388608, .i32⟩ : BufTy).Contents (Elt F) → (⟨S8388608x1, .i32⟩ : BufTy).Contents (Elt F)),
    StableHlo.unary main_v28 main_v40 (broadcastInDim S8388608x1 ![0] bcast_S8388608_S8388608x1_0 : (⟨S8388608, .i32⟩ : BufTy).Contents (Elt F) → (⟨S8388608x1, .i32⟩ : BufTy).Contents (Elt F)),
    StableHlo.unary main_v33 main_v41 (broadcastInDim S8388608x1 ![0] bcast_S8388608_S8388608x1_0 : (⟨S8388608, .i32⟩ : BufTy).Contents (Elt F) → (⟨S8388608x1, .i32⟩ : BufTy).Contents (Elt F)),
    StableHlo.unary main_v38 main_v42 (broadcastInDim S8388608x1 ![0] bcast_S8388608_S8388608x1_0 : (⟨S8388608, .i32⟩ : BufTy).Contents (Elt F) → (⟨S8388608x1, .i32⟩ : BufTy).Contents (Elt F)),
    StableHlo.nary ![main_v39, main_v40, main_v41, main_v42] main_v43 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.ternary main_v14 main_v43 main_v13 main_v44 ((fun x i u => Host.scatterAdd scatter_S8x256x256x64_S8388608x4_S8388608_n_0123_0123_1 x i u) : (⟨S8x256x256x64, .f32⟩ : BufTy).Contents (Elt F) → (⟨S8388608x4, .i32⟩ : BufTy).Contents (Elt F) → (⟨S8388608, .f32⟩ : BufTy).Contents (Elt F) → (⟨S8x256x256x64, .f32⟩ : BufTy).Contents (Elt F)) ]

set_option maxRecDepth 8192 in
set_option maxHeartbeats 4000000 in
/-- @main is that straight line: each function's definition unfolded at its call and each record at its fields,
    both sides are one chain of steps once sequencing is reassociated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., unary_bufs_sub .., binary_bufs_sub .., nullary_bufs_sub .., nullary_bufs_sub ..,
    unary_bufs_sub .., unary_bufs_sub .., unary_bufs_sub .., binary_bufs_sub .., reshape_bufs_sub .., nullary_bufs_sub ..,
    unary_bufs_sub .., reshape_bufs_sub .., reshape_bufs_sub .., reshape_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., nary_bufs_sub .., ternary_bufs_sub ..⟩

/-- Every weakly fair execution of @main terminates with each buffer at the operations' fold over the launch
    contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- First stretch: the index word's floor division by 16384. -/
abbrev ops1 : List (HloOp τ sig (Elt F)) :=
  [ StableHlo.nullary main_c (constantI S_ 32 16384#32),
    StableHlo.TRef.unary (.of main_c) main_call0.v0 id,
    StableHlo.TRef.unary main_call0.v0 main_call0.v1 (broadcastInDim S8x128x128x64 ![] bcast_S_S8x128x128x64),
    StableHlo.TRef.binary (.of main_arg1) main_call0.v1 main_call0.v2 Host.divsi,
    StableHlo.TRef.unary (.of main_arg1) main_call0.v3 signi,
    StableHlo.TRef.unary main_call0.v0 main_call0.v4 signi,
    StableHlo.TRef.unary main_call0.v4 main_call0.v5 (broadcastInDim S8x128x128x64 ![] bcast_S_S8x128x128x64),
    StableHlo.TRef.binary main_call0.v3 main_call0.v5 main_call0.v6 (cmpi .ne),
    StableHlo.TRef.unary main_call0.v0 main_call0.v7 (broadcastInDim S8x128x128x64 ![] bcast_S_S8x128x128x64),
    StableHlo.TRef.binary (.of main_arg1) main_call0.v7 main_call0.v8 Host.remsi,
    StableHlo.TRef.nullary main_call0.c (constantI S_ 32 0#32),
    StableHlo.TRef.unary main_call0.c main_call0.v9 (broadcastInDim S8x128x128x64 ![] bcast_S_S8x128x128x64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8x128x128x64 ![] bcast_S_S8x128x128x64),
    StableHlo.TRef.binary main_call0.v2 main_call0.v12 main_call0.v13 subi,
    StableHlo.TRef.ternary main_call0.v11 main_call0.v13 main_call0.v2 main_call0.call0.v0 select ]

/-- Second stretch: the floor division by 64. -/
abbrev ops2 : List (HloOp τ sig (Elt F)) :=
  [ StableHlo.nullary main_c_0 (constantI S_ 32 64#32),
    StableHlo.TRef.unary (.of main_c_0) main_call1.v0 id,
    StableHlo.TRef.unary main_call1.v0 main_call1.v1 (broadcastInDim S8x128x128x64 ![] bcast_S_S8x128x128x64),
    StableHlo.TRef.binary (.of main_arg1) main_call1.v1 main_call1.v2 Host.divsi,
    StableHlo.TRef.unary (.of main_arg1) main_call1.v3 signi,
    StableHlo.TRef.unary main_call1.v0 main_call1.v4 signi,
    StableHlo.TRef.unary main_call1.v4 main_call1.v5 (broadcastInDim S8x128x128x64 ![] bcast_S_S8x128x128x64),
    StableHlo.TRef.binary main_call1.v3 main_call1.v5 main_call1.v6 (cmpi .ne),
    StableHlo.TRef.unary main_call1.v0 main_call1.v7 (broadcastInDim S8x128x128x64 ![] bcast_S_S8x128x128x64),
    StableHlo.TRef.binary (.of main_arg1) main_call1.v7 main_call1.v8 Host.remsi,
    StableHlo.TRef.nullary main_call1.c (constantI S_ 32 0#32),
    StableHlo.TRef.unary main_call1.c main_call1.v9 (broadcastInDim S8x128x128x64 ![] bcast_S_S8x128x128x64),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S8x128x128x64 ![] bcast_S_S8x128x128x64),
    StableHlo.TRef.binary main_call1.v2 main_call1.v12 main_call1.v13 subi,
    StableHlo.TRef.ternary main_call1.v11 main_call1.v13 main_call1.v2 main_call1.call0.v0 select ]

/-- Third stretch: the remainder of that quotient by 256. -/
abbrev ops3 : List (HloOp τ sig (Elt F)) :=
  [ StableHlo.nullary main_c_1 (constantI S_ 32 256#32),
    StableHlo.TRef.unary (.of main_c_1) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8x128x128x64 ![] bcast_S_S8x128x128x64),
    StableHlo.TRef.binary (.of main_v1) main_call2.v3 main_call2.v4 Host.remsi,
    StableHlo.TRef.nullary main_call2.c_1 (constantI S_ 32 0#32),
    StableHlo.TRef.unary main_call2.c_1 main_call2.v5 (broadcastInDim S8x128x128x64 ![] bcast_S_S8x128x128x64),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8x128x128x64 ![] bcast_S_S8x128x128x64),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8x128x128x64 ![] bcast_S_S8x128x128x64),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8x128x128x64 ![] bcast_S_S8x128x128x64),
    StableHlo.TRef.binary main_call2.v4 main_call2.v13 main_call2.v14 addi,
    StableHlo.TRef.ternary main_call2.v12 main_call2.v14 main_call2.v4 main_call2.v15 select ]

/-- Fourth stretch: the batch and channel numbers, the flattened input, the zero array, and the four index columns. -/
abbrev ops4 : List (HloOp τ sig (Elt F)) :=
  [ StableHlo.nullary main_v3 (iotaInDim S8 32 0),
    StableHlo.unary main_v3 main_v4 (broadcastInDim S8x1x1x1 ![0] bcast_S8_S8x1x1x1_0 : (⟨S8, .i32⟩ : BufTy).Contents (Elt F) → (⟨S8x1x1x1, .i32⟩ : BufTy).Contents (Elt F)),
    StableHlo.nullary main_c_2 (constantI S_ 32 1#32),
    StableHlo.unary main_c_2 main_v5 (broadcastInDim S8x128x128x64 ![] bcast_S_S8x128x128x64 : (⟨S_, .i32⟩ : BufTy).Contents (Elt F) → (⟨S8x128x128x64, .i32⟩ : BufTy).Contents (Elt F)),
    StableHlo.unary main_v4 main_v6 (broadcastInDim S8x128x128x64 ![0, 1, 2, 3] bcast_S8x1x1x1_S8x128x128x64_0_1_2_3 : (⟨S8x1x1x1, .i32⟩ : BufTy).Contents (Elt F) → (⟨S8x128x128x64, .i32⟩ : BufTy).Contents (Elt F)),
    StableHlo.binary main_v6 main_v5 main_v7 (muli : (⟨S8x128x128x64, .i32⟩ : BufTy).Contents (Elt F) → (⟨S8x128x128x64, .i32⟩ : BufTy).Contents (Elt F) → (⟨S8x128x128x64, .i32⟩ : BufTy).Contents (Elt F)),
    StableHlo.nullary main_v8 (iotaInDim S64 32 0),
    StableHlo.nullary main_c_3 (constantI S_ 32 1#32),
    StableHlo.unary main_c_3 main_v9 (broadcastInDim S8x128x128x64 ![] bcast_S_S8x128x128x64 : (⟨S_, .i32⟩ : BufTy).Contents (Elt F) → (⟨S8x128x128x64, .i32⟩ : BufTy).Contents (Elt F)),
    StableHlo.unary main_v8 main_v10 (broadcastInDim S1x1x1x64 ![3] bcast_S64_S1x1x1x64_3 : (⟨S64, .i32⟩ : BufTy).Contents (Elt F) → (⟨S1x1x1x64, .i32⟩ : BufTy).Contents (Elt F)),
    StableHlo.unary main_v10 main_v11 (broadcastInDim S8x128x128x64 ![0, 1, 2, 3] bcast_S1x1x1x64_S8x128x128x64_0_1_2_3 : (⟨S1x1x1x64, .i32⟩ : BufTy).Contents (Elt F) → (⟨S8x128x128x64, .i32⟩ : BufTy).Contents (Elt F)),
    StableHlo.binary main_v11 main_v9 main_v12 (muli : (⟨S8x128x128x64, .i32⟩ : BufTy).Contents (Elt F) → (⟨S8x128x128x64, .i32⟩ : BufTy).Contents (Elt F) → (⟨S8x128x128x64, .i32⟩ : BufTy).Contents (Elt F)),
    StableHlo.reshape main_arg0 main_v13 rfl shapeCasts_S8x128x128x64_S8388608,
    StableHlo.nullary main_cst (constant S_ .f32 0x00000000#32),
    StableHlo.unary main_cst main_v14 (broadcastInDim S8x256x256x64 ![] bcast_S_S8x256x256x64 : (⟨S_, .f32⟩ : BufTy).Contents (Elt F) → (⟨S8x256x256x64, .f32⟩ : BufTy).Contents (Elt F)),
    StableHlo.reshape main_v7 main_v15 rfl shapeCasts_S8x128x128x64_S8388608,
    StableHlo.reshape main_v0 main_v16 rfl shapeCasts_S8x128x128x64_S8388608,
    StableHlo.reshape main_v2 main_v17 rfl shapeCasts_S8x128x128x64_S8388608,
    StableHlo.reshape main_v12 main_v18 rfl shapeCasts_S8x128x128x64_S8388608,
    StableHlo.nullary main_c_4 (constantI S_ 32 0#32),
    StableHlo.unary main_c_4 main_v19 (broadcastInDim S8388608 ![] bcast_S_S8388608 : (⟨S_, .i32⟩ : BufTy).Contents (Elt F) → (⟨S8388608, .i32⟩ : BufTy).Contents (Elt F)),
    StableHlo.binary main_v15 main_v19 main_v20 (cmpi .slt : (⟨S8388608, .i32⟩ : BufTy).Contents (Elt F) → (⟨S8388608, .i32⟩ : BufTy).Contents (Elt F) → (⟨S8388608, .i1⟩ : BufTy).Contents (Elt F)),
    StableHlo.nullary main_c_5 (constantI S_ 32 8#32),
    StableHlo.unary main_c_5 main_v21 (broadcastInDim S8388608 ![] bcast_S_S8388608 : (⟨S_, .i32⟩ : BufTy).Contents (Elt F) → (⟨S8388608, .i32⟩ : BufTy).Contents (Elt F)),
    StableHlo.binary main_v15 main_v21 main_v22 (addi : (⟨S8388608, .i32⟩ : BufTy).Contents (Elt F) → (⟨S8388608, .i32⟩ : BufTy).Contents (Elt F) → (⟨S8388608, .i32⟩ : BufTy).Contents (Elt F)),
    StableHlo.ternary main_v20 main_v22 main_v15 main_v23 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_6 (constantI S_ 32 0#32),
    StableHlo.unary main_c_6 main_v24 (broadcastInDim S8388608 ![] bcast_S_S8388608 : (⟨S_, .i32⟩ : BufTy).Contents (Elt F) → (⟨S8388608, .i32⟩ : BufTy).Contents (Elt F)),
    StableHlo.binary main_v16 main_v24 main_v25 (cmpi .slt : (⟨S8388608, .i32⟩ : BufTy).Contents (Elt F) → (⟨S8388608, .i32⟩ : BufTy).Contents (Elt F) → (⟨S8388608, .i1⟩ : BufTy).Contents (Elt F)),
    StableHlo.nullary main_c_7 (constantI S_ 32 256#32),
    StableHlo.unary main_c_7 main_v26 (broadcastInDim S8388608 ![] bcast_S_S8388608 : (⟨S_, .i32⟩ : BufTy).Contents (Elt F) → (⟨S8388608, .i32⟩ : BufTy).Contents (Elt F)),
    StableHlo.binary main_v16 main_v26 main_v27 (addi : (⟨S8388608, .i32⟩ : BufTy).Contents (Elt F) → (⟨S8388608, .i32⟩ : BufTy).Contents (Elt F) → (⟨S8388608, .i32⟩ : BufTy).Contents (Elt F)),
    StableHlo.ternary main_v25 main_v27 main_v16 main_v28 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_8 (constantI S_ 32 0#32),
    StableHlo.unary main_c_8 main_v29 (broadcastInDim S8388608 ![] bcast_S_S8388608 : (⟨S_, .i32⟩ : BufTy).Contents (Elt F) → (⟨S8388608, .i32⟩ : BufTy).Contents (Elt F)),
    StableHlo.binary main_v17 main_v29 main_v30 (cmpi .slt : (⟨S8388608, .i32⟩ : BufTy).Contents (Elt F) → (⟨S8388608, .i32⟩ : BufTy).Contents (Elt F) → (⟨S8388608, .i1⟩ : BufTy).Contents (Elt F)),
    StableHlo.nullary main_c_9 (constantI S_ 32 256#32),
    StableHlo.unary main_c_9 main_v31 (broadcastInDim S8388608 ![] bcast_S_S8388608 : (⟨S_, .i32⟩ : BufTy).Contents (Elt F) → (⟨S8388608, .i32⟩ : BufTy).Contents (Elt F)),
    StableHlo.binary main_v17 main_v31 main_v32 (addi : (⟨S8388608, .i32⟩ : BufTy).Contents (Elt F) → (⟨S8388608, .i32⟩ : BufTy).Contents (Elt F) → (⟨S8388608, .i32⟩ : BufTy).Contents (Elt F)),
    StableHlo.ternary main_v30 main_v32 main_v17 main_v33 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_10 (constantI S_ 32 0#32),
    StableHlo.unary main_c_10 main_v34 (broadcastInDim S8388608 ![] bcast_S_S8388608 : (⟨S_, .i32⟩ : BufTy).Contents (Elt F) → (⟨S8388608, .i32⟩ : BufTy).Contents (Elt F)),
    StableHlo.binary main_v18 main_v34 main_v35 (cmpi .slt : (⟨S8388608, .i32⟩ : BufTy).Contents (Elt F) → (⟨S8388608, .i32⟩ : BufTy).Contents (Elt F) → (⟨S8388608, .i1⟩ : BufTy).Contents (Elt F)),
    StableHlo.nullary main_c_11 (constantI S_ 32 64#32),
    StableHlo.unary main_c_11 main_v36 (broadcastInDim S8388608 ![] bcast_S_S8388608 : (⟨S_, .i32⟩ : BufTy).Contents (Elt F) → (⟨S8388608, .i32⟩ : BufTy).Contents (Elt F)),
    StableHlo.binary main_v18 main_v36 main_v37 (addi : (⟨S8388608, .i32⟩ : BufTy).Contents (Elt F) → (⟨S8388608, .i32⟩ : BufTy).Contents (Elt F) → (⟨S8388608, .i32⟩ : BufTy).Contents (Elt F)),
    StableHlo.ternary main_v35 main_v37 main_v18 main_v38 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v23 main_v39 (broadcastInDim S8388608x1 ![0] bcast_S8388608_S8388608x1_0 : (⟨S8388608, .i32⟩ : BufTy).Contents (Elt F) → (⟨S8388608x1, .i32⟩ : BufTy).Contents (Elt F)),
    StableHlo.unary main_v28 main_v40 (broadcastInDim S8388608x1 ![0] bcast_S8388608_S8388608x1_0 : (⟨S8388608, .i32⟩ : BufTy).Contents (Elt F) → (⟨S8388608x1, .i32⟩ : BufTy).Contents (Elt F)),
    StableHlo.unary main_v33 main_v41 (broadcastInDim S8388608x1 ![0] bcast_S8388608_S8388608x1_0 : (⟨S8388608, .i32⟩ : BufTy).Contents (Elt F) → (⟨S8388608x1, .i32⟩ : BufTy).Contents (Elt F)),
    StableHlo.unary main_v38 main_v42 (broadcastInDim S8388608x1 ![0] bcast_S8388608_S8388608x1_0 : (⟨S8388608, .i32⟩ : BufTy).Contents (Elt F) → (⟨S8388608x1, .i32⟩ : BufTy).Contents (Elt F)) ]

/-- Last stretch: the columns' concatenation and the scatter-add. -/
abbrev ops5 : List (HloOp τ sig (Elt F)) :=
  [ StableHlo.nary ![main_v39, main_v40, main_v41, main_v42] main_v43 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.ternary main_v14 main_v43 main_v13 main_v44 ((fun x i u => Host.scatterAdd scatter_S8x256x256x64_S8388608x4_S8388608_n_0123_0123_1 x i u) : (⟨S8x256x256x64, .f32⟩ : BufTy).Contents (Elt F) → (⟨S8388608x4, .i32⟩ : BufTy).Contents (Elt F) → (⟨S8388608, .f32⟩ : BufTy).Contents (Elt F) → (⟨S8x256x256x64, .f32⟩ : BufTy).Contents (Elt F)) ]

/-- The operations are the five stretches in a row. -/
theorem ops_split : (ops : List (HloOp τ sig (Elt F))) = ops1 ++ (ops2 ++ (ops3 ++ (ops4 ++ ops5))) := rfl

/-! ### What each stretch leaves, from any contents -/

set_option maxRecDepth 8192 in
set_option maxHeartbeats 1000000 in
/-- The first stretch leaves the floor quotient of the index words by 16384. -/
theorem s1_v0 (V : Valuation τ sig (Elt F)) :
    after ops1 V (main_v0 : DevRef τ sig) = fdivV (V (main_arg1 : DevRef τ sig)) (constantI S_ 32 16384#32) := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
theorem s1_arg0 (V : Valuation τ sig (Elt F)) : after ops1 V (main_arg0 : DevRef τ sig) = V (main_arg0 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
theorem s1_arg1 (V : Valuation τ sig (Elt F)) : after ops1 V (main_arg1 : DevRef τ sig) = V (main_arg1 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
set_option maxHeartbeats 1000000 in
/-- The second stretch leaves the floor quotient of the index words by 64. -/
theorem s2_v1 (V : Valuation τ sig (Elt F)) :
    after ops2 V (main_v1 : DevRef τ sig) = fdivV (V (main_arg1 : DevRef τ sig)) (constantI S_ 32 64#32) := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
theorem s2_v0 (V : Valuation τ sig (Elt F)) : after ops2 V (main_v0 : DevRef τ sig) = V (main_v0 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
theorem s2_arg0 (V : Valuation τ sig (Elt F)) : after ops2 V (main_arg0 : DevRef τ sig) = V (main_arg0 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
set_option maxHeartbeats 1000000 in
/-- The third stretch leaves the remainder by 256 of what the second left. -/
theorem s3_v2 (V : Valuation τ sig (Elt F)) :
    after ops3 V (main_v2 : DevRef τ sig) = pmodV (V (main_v1 : DevRef τ sig)) (constantI S_ 32 256#32) := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
theorem s3_v0 (V : Valuation τ sig (Elt F)) : after ops3 V (main_v0 : DevRef τ sig) = V (main_v0 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
theorem s3_arg0 (V : Valuation τ sig (Elt F)) : after ops3 V (main_arg0 : DevRef τ sig) = V (main_arg0 : DevRef τ sig) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
set_option maxHeartbeats 1000000 in
/-- The batch numbers' column. -/
theorem s4_v39 (V : Valuation τ sig (Elt F)) :
    after ops4 V (main_v39 : DevRef τ sig) = column 8#32 batchOf := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
set_option maxHeartbeats 1000000 in
/-- The destination rows' column. -/
theorem s4_v40 (V : Valuation τ sig (Elt F)) :
    after ops4 V (main_v40 : DevRef τ sig) = column 256#32 (V (main_v0 : DevRef τ sig)) := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
set_option maxHeartbeats 1000000 in
/-- The destination columns' column. -/
theorem s4_v41 (V : Valuation τ sig (Elt F)) :
    after ops4 V (main_v41 : DevRef τ sig) = column 256#32 (V (main_v2 : DevRef τ sig)) := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
set_option maxHeartbeats 1000000 in
/-- The channel numbers' column. -/
theorem s4_v42 (V : Valuation τ sig (Elt F)) :
    after ops4 V (main_v42 : DevRef τ sig) = column 64#32 chanOf := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
set_option maxHeartbeats 1000000 in
/-- The zero array. -/
theorem s4_v14 (V : Valuation τ sig (Elt F)) :
    after ops4 V (main_v14 : DevRef τ sig) = broadcastInDim S8x256x256x64 ![] bcast_S_S8x256x256x64 (constant S_ .f32 0x00000000#32) := by
  simp (disch := decide) only [after_cons, after_nil,
    nullary_result', unary_result', binary_result', ternary_result', reshape_result', nary4_result',
    nullary_result_ne', unary_result_ne', binary_result_ne', ternary_result_ne', reshape_result_ne', nary_result_ne']

set_option maxRecDepth 8192 in
set_option maxHeartbeats 1000000 in
/-- The flattened input. -/
theorem s4_v13 (V : Valuation τ sig (Elt F)) :
    after ops4 V (main_v13 : DevRef τ sig) = shapeCast S8388608 (V (main_arg0 : DevRef τ sig)) shapeCasts_S8x128x128x64_S8388608 := by
  simp (disch := decide) only [after_cons, after_nil,
    nullary_result', unary_result', binary_result', ternary_result', reshape_result', nary4_result',
    nullary_result_ne', unary_result_ne', binary_result_ne', ternary_result_ne', reshape_result_ne', nary_result_ne']
  rfl

set_option maxRecDepth 8192 in
set_option maxHeartbeats 1000000 in
/-- The last stretch scatters the flattened input into the zero array at the concatenated columns. -/
theorem s5_v44 (V : Valuation τ sig (Elt F)) :
    after ops5 V (main_v44 : DevRef τ sig) = Host.scatterAdd scatter_S8x256x256x64_S8388608x4_S8388608_n_0123_0123_1 (V (main_v14 : DevRef τ sig))
        (concatenate S8388608x4 1
          [⟨S8388608x1, V (main_v39 : DevRef τ sig)⟩, ⟨S8388608x1, V (main_v40 : DevRef τ sig)⟩, ⟨S8388608x1, V (main_v41 : DevRef τ sig)⟩, ⟨S8388608x1, V (main_v42 : DevRef τ sig)⟩]
          concatenates_S8388608x1_S8388608x1_S8388608x1_S8388608x1_S8388608x4_d1)
        (V (main_v13 : DevRef τ sig)) := by
  simp (disch := decide) only [after_cons, after_nil,
    nullary_result', unary_result', binary_result', ternary_result', reshape_result', nary4_result',
    nullary_result_ne', unary_result_ne', binary_result_ne', ternary_result_ne', reshape_result_ne', nary_result_ne']
  rfl

/-- The fold read at the result buffer is the reference's term of the two arguments: the five stretches' results
    substituted into one another. -/
theorem out_eq (V : Valuation τ sig (Elt F)) :
    after ops V (main_v44 : DevRef τ sig) = refOut (V (main_arg0 : DevRef τ sig)) (V (main_arg1 : DevRef τ sig)) := by
  rw [ops_split, after_append, after_append, after_append, after_append, s5_v44, s4_v39, s4_v40, s4_v41, s4_v42, s4_v14, s4_v13,
    s3_v2, s3_v0, s3_arg0, s2_v1, s2_v0, s2_arg0, s1_v0, s1_arg0, s1_arg1]
  rfl

set_option maxRecDepth 16384 in
set_option maxHeartbeats 4000000 in
/-- No operation writes the first argument. -/
theorem arg0_eq (V : Valuation τ sig (Elt F)) :
    after ops V (main_arg0 : DevRef τ sig) = V (main_arg0 : DevRef τ sig) := by
  simp (disch := decide) only [after_cons, after_nil,
    nullary_result_ne', unary_result_ne', binary_result_ne', ternary_result_ne', reshape_result_ne', nary_result_ne']

set_option maxRecDepth 16384 in
set_option maxHeartbeats 4000000 in
/-- No operation writes the second argument. -/
theorem arg1_eq (V : Valuation τ sig (Elt F)) :
    after ops V (main_arg1 : DevRef τ sig) = V (main_arg1 : DevRef τ sig) := by
  simp (disch := decide) only [after_cons, after_nil,
    nullary_result_ne', unary_result_ne', binary_result_ne', ternary_result_ne', reshape_result_ne', nary_result_ne']

/-- The reference's run: every weakly fair execution terminates with the result array at the reference's term of the
    arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44)
          = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨(h c main_v44).trans (out_eq _), (h c main_arg0).trans (arg0_eq _),
      (h c main_arg1).trans (arg1_eq _)⟩) (run_main m ρ)

end Cert.ReferenceIdeal.RefRun

end
-- ==== Proof.Words.lean ====
/-
  The decoded words of a non-negative index word. Floor division by a positive constant of a non-negative word is the
  unsigned quotient, and the non-negative remainder of a non-negative word is the unsigned remainder; both are
  non-negative.
-/
import proofs.«422051_j75591424410236_3_alg».proof.Proof.Spec

noncomputable section

namespace Cert.Unpool

open Idealize.ShloMosaic

/-! ### Words that read non-negative

A 32-bit word reads non-negative exactly when its top bit is clear; it then reads the same signed and unsigned, signed
division and remainder by a positive word are the unsigned ones, and neither the floor-division adjustment nor the
remainder's sign adjustment fires. -/

/-- A word that reads non-negative has its top bit clear. -/
theorem msb_false_of_nonneg {a : BitVec 32} (h : 0 ≤ a.toInt) : a.msb = false := by
  rw [BitVec.msb_eq_false_iff_two_mul_lt]
  have := BitVec.toInt_eq_toNat_cond a
  split at this <;> omega

/-- A word whose top bit is clear reads non-negative. -/
theorem nonneg_of_msb_false {a : BitVec 32} (h : a.msb = false) : 0 ≤ a.toInt := by
  rw [BitVec.toInt_eq_toNat_of_msb h]; exact Int.natCast_nonneg _

/-- The unsigned quotient of a word with a clear top bit has a clear top bit: it is no larger. -/
theorem msb_udiv {a c : BitVec 32} (ha : a.msb = false) : (a / c).msb = false := by
  rw [BitVec.msb_eq_false_iff_two_mul_lt] at ha ⊢
  rw [BitVec.toNat_udiv]
  exact Nat.lt_of_le_of_lt (Nat.mul_le_mul_left 2 (Nat.div_le_self _ _)) ha

/-- The unsigned remainder of a word with a clear top bit has a clear top bit: it is no larger. -/
theorem msb_umod {a c : BitVec 32} (ha : a.msb = false) : (a % c).msb = false := by
  rw [BitVec.msb_eq_false_iff_two_mul_lt] at ha ⊢
  rw [BitVec.toNat_umod]
  exact Nat.lt_of_le_of_lt (Nat.mul_le_mul_left 2 (Nat.mod_le _ _)) ha

/-- A non-zero divisor with a clear top bit is neither zero nor minus one: signed division has no corner there. -/
theorem not_corner {a c : BitVec 32} (hc : c.msb = false) (hc0 : c ≠ 0) : ¬ IntOp.SDivCorner a c := by
  rintro (h0 | ⟨-, h1⟩)
  · exact hc0 h0
  · subst h1; revert hc; decide

/-- Signed division of a non-negative word by a positive one is the unsigned division. -/
theorem divsi_eq_udiv {a c : BitVec 32} (ha : a.msb = false) (hc : c.msb = false) (hc0 : c ≠ 0) :
    IntOp.divsi .host a c = a / c := by
  rw [IntOp.divsi, if_neg (not_corner hc hc0), BitVec.sdiv_eq, ha, hc]
  rfl

/-- Signed remainder of a non-negative word by a positive one is the unsigned remainder. -/
theorem remsi_eq_umod {a c : BitVec 32} (ha : a.msb = false) (hc : c.msb = false) (hc0 : c ≠ 0) :
    IntOp.remsi .host a c = a % c := by
  rw [IntOp.remsi, if_neg (not_corner hc hc0), BitVec.srem_eq, ha, hc]

/-- The sign word of a positive word is one. -/
theorem sgnW_pos {c : BitVec 32} (hc : c.msb = false) (hc0 : c ≠ 0) : sgnW c = 1 := by
  rw [sgnW, if_neg hc0, hc]; rfl

theorem cmpi_ne_self (x : BitVec 32) : IntOp.cmpi .ne x x = 0#1 := by
  simp [IntOp.cmpi]

theorem cmpi_ne_self1 (x : BitVec 1) : IntOp.cmpi .ne x x = 0#1 := by
  revert x; decide

theorem andi_zero_left (d : BitVec 1) : IntOp.andi 0#1 d = 0#1 := by revert d; decide
theorem andi_zero_right (d : BitVec 1) : IntOp.andi d 0#1 = 0#1 := by revert d; decide

theorem select_zero {α : Type} (x y : α) : Scalar.select 0#1 x y = y := by
  rw [Scalar.select, if_neg (by decide)]

/-- Floor division of a non-negative word by a positive one is the unsigned division: either the dividend is zero and
    the remainder is zero, or the two signs agree; the adjustment is off both ways. -/
theorem fdivW_eq_udiv {a c : BitVec 32} (ha : a.msb = false) (hc : c.msb = false) (hc0 : c ≠ 0) :
    fdivW a c = a / c := by
  unfold fdivW
  rw [divsi_eq_udiv ha hc hc0, remsi_eq_umod ha hc hc0, sgnW_pos hc hc0]
  by_cases h0 : a = 0
  · subst h0
    have hz : (0 : BitVec 32) % c = 0#32 := by
      apply BitVec.eq_of_toNat_eq; rw [BitVec.toNat_umod]; simp
    rw [hz, cmpi_ne_self, andi_zero_right, select_zero]
  · rw [sgnW_pos ha h0, cmpi_ne_self, andi_zero_left, select_zero]

/-- A word with a clear top bit does not test below zero. -/
theorem cmpi_slt_zero {r : BitVec 32} (hr : r.msb = false) : IntOp.cmpi .slt r 0#32 = 0#1 := by
  have hs : r.slt 0#32 = false := by
    rw [Bool.eq_false_iff]; intro h
    rw [BitVec.slt_iff_toInt_lt] at h
    have h0 : (0#32 : BitVec 32).toInt = 0 := by decide
    have := nonneg_of_msb_false hr
    omega
  simp only [IntOp.cmpi, hs]; rfl

/-- The remainder with the divisor's sign, of a non-negative word by 256, is the unsigned remainder: the divisor is
    not zero, neither the remainder nor the divisor tests negative, so nothing is added. -/
theorem pmodW_256 {q : BitVec 32} (hq : q.msb = false) : pmodW q 256#32 = q % 256#32 := by
  have hsel : Scalar.select (IntOp.cmpi .eq (256#32) 0#32) 1#32 256#32 = 256#32 := by decide
  have h2 : IntOp.cmpi .slt (256#32) 0#32 = 0#1 := by decide
  unfold pmodW
  rw [hsel, remsi_eq_umod hq (by decide) (by decide), cmpi_slt_zero (msb_umod hq), h2, cmpi_ne_self1,
    andi_zero_left, select_zero]

/-- The destination row of a non-negative index word is its unsigned quotient by 16384. -/
theorem ydec_eq_udiv {a : BitVec 32} (ha : a.msb = false) : ydec a = a / 16384#32 :=
  fdivW_eq_udiv ha (by decide) (by decide)

/-- The destination column of a non-negative index word is its unsigned quotient by 64, modulo 256. -/
theorem xdec_eq_umod {a : BitVec 32} (ha : a.msb = false) : xdec a = (a / 64#32) % 256#32 := by
  unfold xdec
  rw [fdivW_eq_udiv ha (by decide) (by decide), pmodW_256 (msb_udiv ha)]

/-- The destination row of a non-negative index word, read as a number. -/
theorem ydec_toNat {a : BitVec 32} (ha : a.msb = false) : (ydec a).toNat = a.toNat / 16384 := by
  rw [ydec_eq_udiv ha, BitVec.toNat_udiv]; rfl

/-- The destination column of a non-negative index word, read as a number. -/
theorem xdec_toNat {a : BitVec 32} (ha : a.msb = false) : (xdec a).toNat = a.toNat / 64 % 256 := by
  rw [xdec_eq_umod ha, BitVec.toNat_umod, BitVec.toNat_udiv]; rfl

/-- A non-negative index word names a non-negative destination row. -/
theorem ydec_nonneg (a : BitVec 32) (h : 0 ≤ a.toInt) : 0 ≤ (ydec a).toInt := by
  have ha := msb_false_of_nonneg h
  rw [ydec_eq_udiv ha]
  exact nonneg_of_msb_false (msb_udiv ha)

/-- A non-negative index word names a non-negative destination column. -/
theorem xdec_nonneg (a : BitVec 32) (h : 0 ≤ a.toInt) : 0 ≤ (xdec a).toInt := by
  have ha := msb_false_of_nonneg h
  rw [xdec_eq_umod ha]
  exact nonneg_of_msb_false (msb_umod (msb_udiv ha))

end Cert.Unpool

end
-- ==== Proof.RefValue.lean ====
/-
  The reference's term is the scatter-sum. An accumulating scatter is, element by element, the operand plus the sum of
  the updates whose four-coordinate destination is that element. With non-negative index words every destination
  coordinate is non-negative, counting from the end never applies, and update `(b', h, w, c')` lands on
  `(b, Y, X, c)` exactly when `b' = b`, `c' = c`, its destination row is `Y` and its destination column is `X`; summing
  over all updates and collapsing the batch and channel sums leaves the sum over rows and columns.
-/
import proofs.«422051_j75591424410236_3_alg».proof.ReferenceIdeal
import proofs.«422051_j75591424410236_3_alg».proof.Proof.Gen.ReferenceIdeal
import proofs.«422051_j75591424410236_3_alg».proof.Proof.RefTerm
import proofs.«422051_j75591424410236_3_alg».proof.Proof.Spec
import proofs.«422051_j75591424410236_3_alg».proof.Proof.Words
import proofs.«422051_j75591424410236_3_alg».proof.Proof.Sums
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.RefTerm Cert.Unpool

/-- An update lands at operand index `o` exactly when, on every axis, its start plus its window coordinate is `o`'s
    coordinate. -/
theorem resultIdx?_eq_some_iff {s si u : Shape} (d : ScatterDims s si u) {w : Nat} (j : u.Idx) (idx : IVec si w) (o : s.Idx) :
    d.resultIdx? j idx = some o ↔ ∀ a, d.start j idx a + (d.window j a : Int) = ((o a).val : Int) := by
  unfold ScatterDims.resultIdx?
  constructor
  · intro h
    split at h
    · next hh =>
      have e := Option.some.inj h
      intro a
      have e' := congrArg Fin.val (congrFun e a)
      have := hh a
      simp only at e'
      omega
    · exact absurd h (by simp)
  · intro h
    have hh : ∀ a, 0 ≤ d.start j idx a + (d.window j a : Int) ∧ d.start j idx a + (d.window j a : Int) < s.size a := fun a => by
      rw [h a]; exact ⟨Int.natCast_nonneg _, by exact_mod_cast (o a).isLt⟩
    rw [dif_pos hh]
    congr 1
    funext a
    apply Fin.ext
    show (d.start j idx a + (d.window j a : Int)).toNat = (o a).val
    rw [h a]; exact Int.toNat_natCast _

/-- The reference's scatter: every operand axis is named by one column of the index table, and no axis is a window axis. -/
abbrev scatD := scatter_S8x256x256x64_S8388608x4_S8388608_n_0123_0123_1

/-- No operand axis is a window axis: the window coordinate is zero everywhere. -/
theorem window_eq (j : S8388608.Idx) (a : Fin 4) : scatD.window j a = 0 := by
  match a with
  | ⟨0, _⟩ => rfl
  | ⟨1, _⟩ => rfl
  | ⟨2, _⟩ => rfl
  | ⟨3, _⟩ => rfl

/-- Component `c` of the start index of the update at flattened position `r` is read at row `r`, column `c` of the table. -/
theorem siIdx_eq (r : Fin 8388608) (c : Fin 4) :
    scatD.siIdx (ix1 r) (c : Fin scatD.scatterDimsToOperandDims.length) = ix2 r c := by
  funext b
  match c, b with
  | ⟨0, _⟩, ⟨0, _⟩ => rfl
  | ⟨1, _⟩, ⟨0, _⟩ => rfl
  | ⟨2, _⟩, ⟨0, _⟩ => rfl
  | ⟨3, _⟩, ⟨0, _⟩ => rfl
  | ⟨0, _⟩, ⟨1, _⟩ => rfl
  | ⟨1, _⟩, ⟨1, _⟩ => rfl
  | ⟨2, _⟩, ⟨1, _⟩ => rfl
  | ⟨3, _⟩, ⟨1, _⟩ => rfl

/-- The start on operand axis `a` of the update at flattened position `r`: the table's entry at row `r`, column `a`, read signed. -/
theorem start_eq (r : Fin 8388608) (t : IVec S8388608x4 32) (a : Fin 4) :
    scatD.start (ix1 r) t a = (t (ix2 r a)).toInt := by
  match a with
  | ⟨0, _⟩ => exact congrArg (fun i => (t i).toInt) (siIdx_eq r 0)
  | ⟨1, _⟩ => exact congrArg (fun i => (t i).toInt) (siIdx_eq r 1)
  | ⟨2, _⟩ => exact congrArg (fun i => (t i).toInt) (siIdx_eq r 2)
  | ⟨3, _⟩ => exact congrArg (fun i => (t i).toInt) (siIdx_eq r 3)

/-- A four-column table read at row `r`, column `k`, is column `k` at row `r`. -/
theorem concat4_apply (c0 c1 c2 c3 : IVec S8388608x1 32)
    (h : Shape.Concatenates [S8388608x1, S8388608x1, S8388608x1, S8388608x1] S8388608x4 1) (r : Fin 8388608) :
    concatenate S8388608x4 1 [⟨S8388608x1, c0⟩, ⟨S8388608x1, c1⟩, ⟨S8388608x1, c2⟩, ⟨S8388608x1, c3⟩] h (ix2 r (0 : Fin 4))
        = c0 (ix2 r (0 : Fin 1)) ∧
    concatenate S8388608x4 1 [⟨S8388608x1, c0⟩, ⟨S8388608x1, c1⟩, ⟨S8388608x1, c2⟩, ⟨S8388608x1, c3⟩] h (ix2 r (1 : Fin 4))
        = c1 (ix2 r (0 : Fin 1)) ∧
    concatenate S8388608x4 1 [⟨S8388608x1, c0⟩, ⟨S8388608x1, c1⟩, ⟨S8388608x1, c2⟩, ⟨S8388608x1, c3⟩] h (ix2 r (2 : Fin 4))
        = c2 (ix2 r (0 : Fin 1)) ∧
    concatenate S8388608x4 1 [⟨S8388608x1, c0⟩, ⟨S8388608x1, c1⟩, ⟨S8388608x1, c2⟩, ⟨S8388608x1, c3⟩] h (ix2 r (3 : Fin 4))
        = c3 (ix2 r (0 : Fin 1)) := by
  refine ⟨?_, ?_, ?_, ?_⟩
  · refine concatenate_apply_piece (t := S8388608x4) (1 : Fin 2) [⟨S8388608x1, c0⟩, ⟨S8388608x1, c1⟩, ⟨S8388608x1, c2⟩, ⟨S8388608x1, c3⟩] h (ix2 r (0 : Fin 4)) 0 (by show 0 < 4; omega) S8388608x1 c0 rfl rfl 0 rfl
      (ix2 r (0 : Fin 1)) (fun b hb => ?_) rfl
    match b with
    | ⟨0, _⟩ => rfl
    | ⟨1, _⟩ => exact absurd rfl hb
  · refine concatenate_apply_piece (t := S8388608x4) (1 : Fin 2) [⟨S8388608x1, c0⟩, ⟨S8388608x1, c1⟩, ⟨S8388608x1, c2⟩, ⟨S8388608x1, c3⟩] h (ix2 r (1 : Fin 4)) 1 (by show 1 < 4; omega) S8388608x1 c1 rfl rfl 1 rfl
      (ix2 r (0 : Fin 1)) (fun b hb => ?_) rfl
    match b with
    | ⟨0, _⟩ => rfl
    | ⟨1, _⟩ => exact absurd rfl hb
  · refine concatenate_apply_piece (t := S8388608x4) (1 : Fin 2) [⟨S8388608x1, c0⟩, ⟨S8388608x1, c1⟩, ⟨S8388608x1, c2⟩, ⟨S8388608x1, c3⟩] h (ix2 r (2 : Fin 4)) 2 (by show 2 < 4; omega) S8388608x1 c2 rfl rfl 2 rfl
      (ix2 r (0 : Fin 1)) (fun b hb => ?_) rfl
    match b with
    | ⟨0, _⟩ => rfl
    | ⟨1, _⟩ => exact absurd rfl hb
  · refine concatenate_apply_piece (t := S8388608x4) (1 : Fin 2) [⟨S8388608x1, c0⟩, ⟨S8388608x1, c1⟩, ⟨S8388608x1, c2⟩, ⟨S8388608x1, c3⟩] h (ix2 r (3 : Fin 4)) 3 (by show 3 < 4; omega) S8388608x1 c3 rfl rfl 3 rfl
      (ix2 r (0 : Fin 1)) (fun b hb => ?_) rfl
    match b with
    | ⟨0, _⟩ => rfl
    | ⟨1, _⟩ => exact absurd rfl hb

/-- A negative entry counted from the axis' end, at one word. -/
def fe (n a : BitVec 32) : BitVec 32 := Scalar.select (IntOp.cmpi .slt a 0#32) (IntOp.addi a n) a

/-- The reshape's re-indexing: the input index at flattened position `j`. -/
abbrev unflat : S8388608.Idx ≃ S8x128x128x64.Idx := Shape.reshapeEquiv Facts₀.shapeCasts_S8x128x128x64_S8388608

/-- A column of the table at row `r`: the array's element at the input position `r` flattens, counted from the axis' end when negative. -/
theorem column_apply (n : BitVec 32) (v : IVec S8x128x128x64 32) (r : Fin 8388608) :
    column n v (ix2 r (0 : Fin 1)) = fe n (v (unflat (ix1 r))) := by
  unfold column
  refine (broadcastInDim_apply _ _ _ (ix2 r (0 : Fin 1)) (ix1 r) (fun a => ?_)).trans ?_
  · match a with
    | ⟨0, _⟩ => rfl
  · rfl

/-- The batch word of an input position is its batch number (times one). -/
theorem batchOf_apply (i : S8x128x128x64.Idx) : batchOf i = BitVec.ofNat 32 (i 0).val * 1#32 := rfl
/-- The channel word of an input position is its channel number (times one). -/
theorem chanOf_apply (i : S8x128x128x64.Idx) : chanOf i = BitVec.ofNat 32 (i 3).val * 1#32 := rfl
/-- Floor division of an array by a scalar, at one element. -/
theorem fdivV_apply (a : IVec S8x128x128x64 32) (c : BitVec 32) (i : S8x128x128x64.Idx) :
    fdivV a (constantI S_ 32 c) i = fdivW (a i) c := rfl
/-- The remainder of an array by a scalar, at one element. -/
theorem pmodV_apply (a : IVec S8x128x128x64 32) (c : BitVec 32) (i : S8x128x128x64.Idx) :
    pmodV a (constantI S_ 32 c) i = pmodW (a i) c := rfl

/-- The word of a number below `2³¹` reads that number. -/
theorem toInt_ofNat_small (n : Nat) (h : n < 2147483648) : (BitVec.ofNat 32 n).toInt = (n : Int) := by
  have e : (BitVec.ofNat 32 n).toNat = n := by rw [BitVec.toNat_ofNat]; omega
  rw [BitVec.toInt_eq_toNat_of_lt (by rw [e]; omega), e]

/-- A word that reads non-negative is not counted from the axis' end. -/
theorem fe_of_nonneg (n a : BitVec 32) (h : 0 ≤ a.toInt) : fe n a = a := by
  unfold fe
  rw [cmpi_slt_zero (msb_false_of_nonneg h), Cert.Unpool.select_zero]

/-- For a word that reads non-negative and a number below `2³¹`: the word reads that number exactly when it is that
    number's word. -/
theorem toInt_eq_iff (v : BitVec 32) (hv : 0 ≤ v.toInt) (n : Nat) (hn : n < 2147483648) :
    v.toInt = (n : Int) ↔ v = BitVec.ofNat 32 n := by
  constructor
  · intro h
    apply BitVec.eq_of_toInt_eq
    rw [h, toInt_ofNat_small n hn]
  · intro h
    rw [h, toInt_ofNat_small n hn]

/-- The update at flattened position `r` lands at `(b, Y, X, c)` exactly when row `r` of the table reads `b, Y, X, c`. -/
theorem lands_iff0 (t : IVec S8388608x4 32) (r : Fin 8388608) (b : Fin 8) (Y X : Fin 256) (c : Fin 64) :
    scatD.resultIdx? (ix1 r) t = some (ix4 b Y X c) ↔
      (t (ix2 r (0 : Fin 4))).toInt = (b.val : Int) ∧ (t (ix2 r (1 : Fin 4))).toInt = (Y.val : Int) ∧
      (t (ix2 r (2 : Fin 4))).toInt = (X.val : Int) ∧ (t (ix2 r (3 : Fin 4))).toInt = (c.val : Int) := by
  rw [resultIdx?_eq_some_iff]
  constructor
  · intro h
    refine ⟨?_, ?_, ?_, ?_⟩
    · have e := h (0 : Fin 4)
      rw [start_eq r t 0, window_eq (ix1 r) 0] at e
      change _ + ((0 : Nat) : Int) = ((b.val : Nat) : Int) at e
      omega
    · have e := h (1 : Fin 4)
      rw [start_eq r t 1, window_eq (ix1 r) 1] at e
      change _ + ((0 : Nat) : Int) = ((Y.val : Nat) : Int) at e
      omega
    · have e := h (2 : Fin 4)
      rw [start_eq r t 2, window_eq (ix1 r) 2] at e
      change _ + ((0 : Nat) : Int) = ((X.val : Nat) : Int) at e
      omega
    · have e := h (3 : Fin 4)
      rw [start_eq r t 3, window_eq (ix1 r) 3] at e
      change _ + ((0 : Nat) : Int) = ((c.val : Nat) : Int) at e
      omega
  · rintro ⟨h0, h1, h2, h3⟩ a
    rw [start_eq r t a, window_eq (ix1 r) a]
    match a with
    | ⟨0, _⟩ => change _ + ((0 : Nat) : Int) = ((b.val : Nat) : Int); rw [← h0]; exact Int.add_zero _
    | ⟨1, _⟩ => change _ + ((0 : Nat) : Int) = ((Y.val : Nat) : Int); rw [← h1]; exact Int.add_zero _
    | ⟨2, _⟩ => change _ + ((0 : Nat) : Int) = ((X.val : Nat) : Int); rw [← h2]; exact Int.add_zero _
    | ⟨3, _⟩ => change _ + ((0 : Nat) : Int) = ((c.val : Nat) : Int); rw [← h3]; exact Int.add_zero _

/-- The scatter's index table: one row per flattened input position, its columns the batch, the destination row, the
    destination column and the channel. -/
def tab (idx : IVec S8x128x128x64 32) : IVec S8388608x4 32 :=
  concatenate S8388608x4 1
    [⟨S8388608x1, column 8#32 batchOf⟩,
     ⟨S8388608x1, column 256#32 (fdivV idx (constantI S_ 32 16384#32))⟩,
     ⟨S8388608x1, column 256#32 (pmodV (fdivV idx (constantI S_ 32 64#32)) (constantI S_ 32 256#32))⟩,
     ⟨S8388608x1, column 64#32 chanOf⟩]
    Facts₀.concatenates_S8388608x1_S8388608x1_S8388608x1_S8388608x1_S8388608x4_d1

/-- The word of a number below `2³¹`, times one, reads non-negative. -/
theorem small_word_nonneg (n : Nat) (h : n < 2147483648) : 0 ≤ (BitVec.ofNat 32 n * 1#32).toInt := by
  rw [BitVec.mul_one, toInt_ofNat_small n h]; exact Int.natCast_nonneg _

/-- Row `r` of the table, under non-negative index words: the batch and channel of the input position, and the
    destination row and column its index word names, none of them moved by the count from the axis' end. -/
theorem tab_row (idx : IVec S8x128x128x64 32) (hnn : ∀ i, 0 ≤ (idx i).toInt) (r : Fin 8388608) :
    (tab idx (ix2 r (0 : Fin 4))).toInt = ((unflat (ix1 r) 0).val : Int) ∧
    tab idx (ix2 r (1 : Fin 4)) = ydec (idx (unflat (ix1 r))) ∧
    tab idx (ix2 r (2 : Fin 4)) = xdec (idx (unflat (ix1 r))) ∧
    (tab idx (ix2 r (3 : Fin 4))).toInt = ((unflat (ix1 r) 3).val : Int) := by
  obtain ⟨e0, e1, e2, e3⟩ := concat4_apply (column 8#32 batchOf) (column 256#32 (fdivV idx (constantI S_ 32 16384#32)))
    (column 256#32 (pmodV (fdivV idx (constantI S_ 32 64#32)) (constantI S_ 32 256#32))) (column 64#32 chanOf)
    Facts₀.concatenates_S8388608x1_S8388608x1_S8388608x1_S8388608x1_S8388608x4_d1 r
  have hb : (unflat (ix1 r) 0).val < 8 := (unflat (ix1 r) 0).isLt
  have hc : (unflat (ix1 r) 3).val < 64 := (unflat (ix1 r) 3).isLt
  refine ⟨?_, ?_, ?_, ?_⟩
  · unfold tab
    rw [e0, column_apply, batchOf_apply, fe_of_nonneg _ _ (small_word_nonneg _ (by omega)), BitVec.mul_one,
      toInt_ofNat_small _ (by omega)]
  · unfold tab
    rw [e1, column_apply, fdivV_apply]
    exact fe_of_nonneg _ _ (ydec_nonneg _ (hnn _))
  · unfold tab
    rw [e2, column_apply, pmodV_apply, fdivV_apply]
    exact fe_of_nonneg _ _ (xdec_nonneg _ (hnn _))
  · unfold tab
    rw [e3, column_apply, chanOf_apply, fe_of_nonneg _ _ (small_word_nonneg _ (by omega)), BitVec.mul_one,
      toInt_ofNat_small _ (by omega)]

/-- Whether the input position `i` is of batch `b` and channel `c` and its index word names row `Y`, column `X`. -/
def Lands (idx : IVec S8x128x128x64 32) (b : Fin 8) (Y X : Fin 256) (c : Fin 64) (i : S8x128x128x64.Idx) : Prop :=
  (i 0).val = b.val ∧ (i 3).val = c.val ∧
    ydec (idx i) = BitVec.ofNat 32 Y.val ∧ xdec (idx i) = BitVec.ofNat 32 X.val

instance (idx : IVec S8x128x128x64 32) (b : Fin 8) (Y X : Fin 256) (c : Fin 64) (i : S8x128x128x64.Idx) :
    Decidable (Lands idx b Y X c i) := by unfold Lands; infer_instance

/-- The update at flattened position `j` lands at `(b, Y, X, c)` exactly when the input position it comes from does. -/
theorem lands_iff (idx : IVec S8x128x128x64 32) (hnn : ∀ i, 0 ≤ (idx i).toInt) (j : S8388608.Idx)
    (b : Fin 8) (Y X : Fin 256) (c : Fin 64) :
    scatD.resultIdx? j (tab idx) = some (ix4 b Y X c) ↔ Lands idx b Y X c (unflat j) := by
  obtain ⟨r, rfl⟩ : ∃ r : Fin 8388608, j = ix1 r := ⟨j 0, eq_ix1 j⟩
  obtain ⟨t0, t1, t2, t3⟩ := tab_row idx hnn r
  rw [lands_iff0, t0, t1, t2, t3, toInt_eq_iff _ (ydec_nonneg _ (hnn _)) Y.val (by omega),
    toInt_eq_iff _ (xdec_nonneg _ (hnn _)) X.val (by omega)]
  unfold Lands
  constructor
  · rintro ⟨h0, h1, h2, h3⟩; exact ⟨by exact_mod_cast h0, by exact_mod_cast h3, h1, h2⟩
  · rintro ⟨h0, h3, h1, h2⟩; exact ⟨by exact_mod_cast h0, h1, h2, by exact_mod_cast h3⟩

/-- The landing test at an input position given by its coordinates. -/
theorem lands_ix4 (idx : IVec S8x128x128x64 32) (b : Fin 8) (Y X : Fin 256) (c : Fin 64)
    (b' : Fin 8) (h w : Fin 128) (c' : Fin 64) :
    Lands idx b Y X c (ix4 b' h w c') ↔
      b' = b ∧ c' = c ∧ ydec (idx (ix4 b' h w c')) = BitVec.ofNat 32 Y.val ∧ xdec (idx (ix4 b' h w c')) = BitVec.ofNat 32 X.val := by
  unfold Lands
  show b'.val = b.val ∧ c'.val = c.val ∧ _ ↔ _
  rw [← Fin.ext_iff, ← Fin.ext_iff]

/-- The accumulating scatter at one element: the operand's element plus every update, counted where it lands there. -/
theorem hostScatterAdd_apply {s si su : Shape} (d : ScatterDims s si su) {w : Nat} (x0 : s.Idx → EReal) (idx : IVec si w)
    (upd : su.Idx → EReal) (i : s.Idx) :
    Ideal.hostScatterAdd d x0 idx upd i = x0 i + ∑ j, if d.resultIdx? j idx = some i then upd j else 0 := by
  unfold Ideal.hostScatterAdd
  rw [Finset.sum_filter]

/-- The reference's term at the exact instance: the accumulating scatter of the input, read in row-major order, into the
    zero array along the index table. -/
theorem refOut_term (x : FVec Ideal S8x128x128x64 .f32) (idx : IVec S8x128x128x64 32) :
    refOut (F := Ideal) x idx
      = Ideal.hostScatterAdd scatD
          (broadcastInDim S8x256x256x64 ![] Facts₀.bcast_S_S8x256x256x64 (constant (F := Ideal) S_ .f32 0x00000000#32))
          (tab idx) (fun j => x (unflat j)) := rfl

/-- The reference's result at `(b, Y, X, c)` is the sum of the inputs of batch `b` and channel `c` whose index word names
    `(Y, X)`. -/
theorem refOut_at (x : FVec Ideal S8x128x128x64 .f32) (idx : IVec S8x128x128x64 32) (hnn : ∀ i, 0 ≤ (idx i).toInt)
    (b : Fin 8) (Y X : Fin 256) (c : Fin 64) :
    refOut (F := Ideal) x idx (ix4 b Y X c) = unpoolAt x idx b Y X c := by
  rw [refOut_term, hostScatterAdd_apply]
  -- the operand is the zero array
  have hz : broadcastInDim S8x256x256x64 ![] Facts₀.bcast_S_S8x256x256x64 (constant (F := Ideal) S_ .f32 0x00000000#32)
      (ix4 b Y X c) = 0 := Ideal.ofBits_zero_f32
  rw [hz, zero_add]
  -- every update is tested by where its input position lands
  refine (Finset.sum_congr rfl (fun j _ => if_congr (lands_iff idx hnn j b Y X c) rfl rfl)).trans ?_
  -- the flattened positions are the input positions, re-indexed
  refine (Equiv.sum_comp unflat (fun i => if Lands idx b Y X c i then x i else 0)).trans ?_
  rw [sum_idx4]
  unfold unpoolAt
  -- only batch `b` contributes
  rw [Finset.sum_eq_single b (fun b' _ hne => Finset.sum_eq_zero fun h _ => Finset.sum_eq_zero fun w _ =>
        Finset.sum_eq_zero fun c' _ => if_neg (fun hq => hne ((lands_ix4 idx b Y X c b' h w c').1 hq).1))
      (fun hb => absurd (Finset.mem_univ b) hb)]
  refine Finset.sum_congr rfl fun h _ => Finset.sum_congr rfl fun w _ => ?_
  -- and of it only channel `c`
  rw [Finset.sum_eq_single c (fun c' _ hne => if_neg (fun hq => hne ((lands_ix4 idx b Y X c b h w c').1 hq).2.1))
      (fun hc => absurd (Finset.mem_univ c) hc)]
  exact if_congr ((lands_ix4 idx b Y X c b h w c).trans ⟨fun hq => hq.2.2, fun hq => ⟨rfl, rfl, hq⟩⟩) rfl rfl

/-- At the exact instance, on non-negative index words, the reference's term is the scatter-sum. -/
theorem refOut_eq (x : FVec Ideal S8x128x128x64 .f32) (idx : IVec S8x128x128x64 32) (hnn : ∀ i, 0 ≤ (idx i).toInt) :
    refOut (F := Ideal) x idx = unpool x idx := by
  funext o
  obtain ⟨b, Y, X, c, rfl⟩ : ∃ (b : Fin 8) (Y X : Fin 256) (c : Fin 64), o = ix4 b Y X c :=
    ⟨o 0, o 1, o 2, o 3, eq_ix4 o⟩
  rw [unpool_ix4]
  exact refOut_at x idx hnn b Y X c

end Cert.ReferenceIdeal.RefValue

end
-- ==== Proof.lean ====
/-
  Max-unpooling as a scatter-sum: every input element `inputs[b, h, w, c]` carries a flattened index word `a`, names the
  output row `⌊a / (256 · 64)⌋` and the output column `⌊a / 64⌋ mod 256`, and is ADDED to `out[b, row, column, c]`;
  elements naming the same place are summed, and an element whose row is no row of the output lands nowhere.

  The reference scatters: it lists, per input element, the four coordinates of its destination (a negative coordinate
  counted from the axis' end) and adds the flattened values into a zero array. The kernel takes one (batch, channel)
  pair per grid point and computes that pair's 256 × 256 output plane as a product of indicator matrices,
  `out[Y, X] = ∑ₖ [rowₖ = Y] · vₖ · [colₖ = X]` over the 16384 positions `k` of the flattened input plane, twice: once with
  `v` and once with the remainder `v − v` left by rounding `v` to a narrower format and back, which over the reals is
  zero exactly when `v` is a real number — this is where finiteness of the inputs is used.

  The two agree when no index word is negative: then every destination row and column is non-negative, counting from
  the end never applies, and both sides are `∑_{h, w} [row = Y ∧ column = X] · inputs[b, h, w, c]` (`Cert.Unpool.unpool`);
  a row beyond the output is dropped by both. For a negative index word the reference counts its row from the end while
  the kernel's indicator matches no row, so the non-negativity of the index words is part of the precondition.

  The modules: Proof/Spec.lean states the scatter-sum; Proof/Words.lean the sign facts of the two decoded words;
  Proof/PreFacts.lean reads the precondition (every input a real number, every index word non-negative);
  Proof/KernelBody.lean one grid point's plane as the sum over `k`; Proof/KernelHost.lean the three columns the region is
  handed, read off the arguments; Proof/KernelValue.lean the kernel's whole run; Proof/RefTerm.lean the reference's
  result as one term, Proof/RefRun.lean its run, Proof/RefValue.lean that term as the scatter-sum.
-/
import proofs.«422051_j75591424410236_3_alg».proof.Defs
import proofs.«422051_j75591424410236_3_alg».proof.Proof.Gen.Kernel
import proofs.«422051_j75591424410236_3_alg».proof.Proof.Gen.Kernel.Frame
import proofs.«422051_j75591424410236_3_alg».proof.Proof.Gen.KernelIdeal
import proofs.«422051_j75591424410236_3_alg».proof.Proof.Gen.KernelIdeal.Frame
import proofs.«422051_j75591424410236_3_alg».proof.Proof.Gen.ReferenceIdeal
import proofs.«422051_j75591424410236_3_alg».proof.Proof.Gen.Pre_finite_inputs
import proofs.«422051_j75591424410236_3_alg».proof.Proof.Spec
import proofs.«422051_j75591424410236_3_alg».proof.Proof.PreFacts
import proofs.«422051_j75591424410236_3_alg».proof.Proof.KernelValue
import proofs.«422051_j75591424410236_3_alg».proof.Proof.RefRun
import proofs.«422051_j75591424410236_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the idealization: widening back what was narrowed is the identity over the reals, and the
    rounding through the narrow format on words. -/
theorem preserves : Cert.preserves_Kernel_KernelIdeal :=
  IdealRules.truncf_extf.statement Cert.KernelIdeal.S16384x1 .f32 .bf16

/-- Both idealized programs end at the scatter-sum of the arguments: the kernel because its inputs are real numbers,
    the reference because its index words are non-negative. -/
theorem algebraic : Cert.algebraic_KernelIdeal_ReferenceIdeal := by
  intro m ρ m' ρ' hpre hagree
  refine ⟨fun c => Cert.Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.UnpoolValue.run m ρ (fun c i => Cert.Unpool.Pre.finite_of_pre _ _ (hpre c) i), ?_⟩
  refine (θ_run Cert.ReferenceIdeal.defs _ _).mono (fun _ h c => ⟨?_, (h c).2⟩)
    (Cert.ReferenceIdeal.RefRun.run (F := Ideal) m' ρ')
  rw [(h c).1, (hagree c).1, (hagree c).2]
  exact Cert.ReferenceIdeal.RefValue.refOut_eq _ _ (fun i => Cert.Unpool.Pre.nonneg_of_pre _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
